-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x4096 : Shape := ⟨2, ![32, 4096]⟩
abbrev S256 : Shape := ⟨1, ![256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x4096x256 .f32) (main_arg1 : IVec S32x4096 32) (main_arg2 : FVec F S256 .f32) (main_arg3 : FVec F S256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x4096x256 : Shape := ⟨3, ![32, 4096, 256]⟩
abbrev S32x4096 : Shape := ⟨2, ![32, 4096]⟩
abbrev S256 : Shape := ⟨1, ![256]⟩
abbrev S16x256 : Shape := ⟨2, ![16, 256]⟩
abbrev S16x128 : Shape := ⟨2, ![16, 128]⟩
abbrev S16x1024x256 : Shape := ⟨3, ![16, 1024, 256]⟩
abbrev S16x1024 : Shape := ⟨2, ![16, 1024]⟩
abbrev S8x256 : Shape := ⟨2, ![8, 256]⟩
abbrev S8x128 : Shape := ⟨2, ![8, 128]⟩
abbrev S16x1024x1 : Shape := ⟨3, ![16, 1024, 1]⟩
abbrev S1x256 : Shape := ⟨2, ![1, 256]⟩
abbrev S1x16x1024x1 : Shape := ⟨4, ![1, 16, 1024, 1]⟩
abbrev S1 : Shape := ⟨1, ![1]⟩
abbrev S1x1x1x1 : Shape := ⟨4, ![1, 1, 1, 1]⟩
abbrev S1x1 : Shape := ⟨2, ![1, 1]⟩
abbrev S_ : Shape := ⟨0, ![]⟩
abbrev S32x256x256 : Shape := ⟨3, ![32, 256, 256]⟩
abbrev S32x256 : Shape := ⟨2, ![32, 256]⟩
abbrev S32x256x1 : Shape := ⟨3, ![32, 256, 1]⟩
abbrev S1x1x256 : Shape := ⟨3, ![1, 1, 256]⟩

abbrev nBuf : Space → Nat
  | .hbm => 39
  | .vmem => 18
  | .smem => 0
  | _ => 0

abbrev bufTy : (tb : Table) → Fin (tcTables nBuf tb) → BufTy
  | .hbm, ⟨0, _⟩ => ⟨S32x4096x256, .f32⟩
  | .hbm, ⟨1, _⟩ => ⟨S32x4096, .i32⟩
  | .hbm, ⟨2, _⟩ => ⟨S256, .f32⟩
  | .hbm, ⟨3, _⟩ => ⟨S256, .f32⟩
  | .hbm, ⟨4, _⟩ => ⟨S16x256, .f32⟩
  | .hbm, ⟨5, _⟩ => ⟨S16x256, .f32⟩
  | .hbm, ⟨6, _⟩ => ⟨S16x128, .f32⟩
  | .hbm, ⟨7, _⟩ => ⟨S1x256, .f32⟩
  | .hbm, ⟨8, _⟩ => ⟨S256, .f32⟩
  | .hbm, ⟨9, _⟩ => ⟨S1x256, .f32⟩
  | .hbm, ⟨10, _⟩ => ⟨S256, .f32⟩
  | .hbm, ⟨11, _⟩ => ⟨S256, .f32⟩
  | .hbm, ⟨12, _⟩ => ⟨S1x256, .f32⟩
  | .hbm, ⟨13, _⟩ => ⟨S256, .f32⟩
  | .hbm, ⟨14, _⟩ => ⟨S1x256, .f32⟩
  | .hbm, ⟨15, _⟩ => ⟨S256, .f32⟩
  | .hbm, ⟨16, _⟩ => ⟨S256, .f32⟩
  | .hbm, ⟨17, _⟩ => ⟨S1x1, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S32x4096x256, .f32⟩
  | .local _ .vmem, ⟨0, _⟩ => ⟨S16x1024x256, .f32⟩
  | .local _ .vmem, ⟨1, _⟩ => ⟨S16x1024x256, .f32⟩
  | .local _ .vmem, ⟨2, _⟩ => ⟨S16x1024, .i32⟩
  | .local _ .vmem, ⟨3, _⟩ => ⟨S16x1024, .i32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x128, .f32⟩
  | .local _ .vmem, ⟨9, _⟩ => ⟨S8x128, .f32⟩
  | .local _ .vmem, ⟨10, _⟩ => ⟨S32x256x256, .f32⟩
  | .local _ .vmem, ⟨11, _⟩ => ⟨S32x256x256, .f32⟩
  | .local _ .vmem, ⟨12, _⟩ => ⟨S32x256, .i32⟩
  | .local _ .vmem, ⟨13, _⟩ => ⟨S32x256, .i32⟩
  | .local _ .vmem, ⟨14, _⟩ => ⟨S256, .f32⟩
  | .local _ .vmem, ⟨15, _⟩ => ⟨S256, .f32⟩
  | .local _ .vmem, ⟨16, _⟩ => ⟨S32x256x256, .f32⟩
  | .local _ .vmem, ⟨17, _⟩ => ⟨S32x256x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S8x256_S8x256_0_0 : ∀ a, (![0, 0] : Fin 2 → Nat) a + S8x256.size a ≤ S8x256.size a
  h_S8x256 : 0 < S8x256.numel
  inb_S8x128_S8x128_0_0 : ∀ a, (![0, 0] : Fin 2 → Nat) a + S8x128.size a ≤ S8x128.size a
  h_S8x128 : 0 < S8x128.numel
  inb_S16x1024x256_S16x1024x256_0_0_0 : ∀ a, (![0, 0, 0] : Fin 3 → Nat) a + S16x1024x256.size a ≤ S16x1024x256.size a
  h_S16x1024x256 : 0 < S16x1024x256.numel
  inb_S16x1024_S16x1024_0_0 : ∀ a, (![0, 0] : Fin 2 → Nat) a + S16x1024.size a ≤ S16x1024.size a
  h_S16x1024 : 0 < S16x1024.numel
  natLt_1_32 : 1 < 32
  shapeCasts_S16x1024_S16x1024x1 : S16x1024.ShapeCasts S16x1024x1
  broadcasts_S16x1024x1_S16x1024x256 : S16x1024x1.Broadcasts S16x1024x256
  shapeCasts_S8x256_S8x256 : S8x256.ShapeCasts S8x256
  reduces_S16x1024x256_S256 : S16x1024x256.Reduces [0, 1] S256
  shapeCasts_S256_S1x256 : S256.ShapeCasts S1x256
  broadcasts_S1x256_S8x256 : S1x256.Broadcasts S8x256
  shapeCasts_S8x128_S8x128 : S8x128.ShapeCasts S8x128
  shapeCasts_S16x1024x1_S1x16x1024x1 : S16x1024x1.ShapeCasts S1x16x1024x1
  reduces_S1x16x1024x1_S1 : S1x16x1024x1.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  broadcasts_S1x1_S8x128 : S1x1.Broadcasts S8x128
  slices_S16x256_S1x256_0_0 : S16x256.Slices ![0, 0] S1x256
  shapeCasts_S1x256_S256 : S1x256.ShapeCasts S256
  slices_S16x256_S1x256_8_0 : S16x256.Slices ![8, 0] S1x256
  slices_S16x128_S1x1_0_0 : S16x128.Slices ![0, 0] S1x1
  shapeCasts_S1x1_S_ : S1x1.ShapeCasts S_
  slices_S16x128_S1x1_8_0 : S16x128.Slices ![8, 0] S1x1
  bcast_S_S256 : S_.BroadcastsInDim S256 (![] : Fin 0 → Fin S256.rank)
  inb_S32x256x256_S32x256x256_0_0_0 : ∀ a, (![0, 0, 0] : Fin 3 → Nat) a + S32x256x256.size a ≤ S32x256x256.size a
  h_S32x256x256 : 0 < S32x256x256.numel
  inb_S32x256_S32x256_0_0 : ∀ a, (![0, 0] : Fin 2 → Nat) a + S32x256.size a ≤ S32x256.size a
  h_S32x256 : 0 < S32x256.numel
  shapeCasts_S32x256_S32x256x1 : S32x256.ShapeCasts S32x256x1
  inb_S256_S256_0 : ∀ a, (![0] : Fin 1 → Nat) a + S256.size a ≤ S256.size a
  h_S256 : 0 < S256.numel
  shapeCasts_S256_S256 : S256.ShapeCasts S256
  shapeCasts_S256_S1x1x256 : S256.ShapeCasts S1x1x256
  broadcasts_S1x1x256_S32x256x256 : S1x1x256.Broadcasts S32x256x256
  broadcasts_S32x256x1_S32x256x256 : S32x256x1.Broadcasts S32x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x256.size a ≤ S32x4096x256.size a
  hwx0_0 : ∀ i : grid0.Coords, EltTy.bits .f32 = 32 ∨ (Rect.block (s := S32x4096x256) S16x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S32x4096.size a
  hwx0_1 : ∀ i : grid0.Coords, EltTy.bits .i32 = 32 ∨ (Rect.block (s := S32x4096) S16x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x256.size a
  hwx0_2 : ∀ i : grid0.Coords, EltTy.bits .f32 = 32 ∨ (Rect.block (s := S16x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x256.size a
  hwx0_3 : ∀ i : grid0.Coords, EltTy.bits .f32 = 32 ∨ (Rect.block (s := S16x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256x256.size a ≤ S32x4096x256.size a
  hwx1_0 : ∀ i : grid1.Coords, EltTy.bits .f32 = 32 ∨ (Rect.block (s := S32x4096x256) S32x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x4096.size a
  hwx1_1 : ∀ i : grid1.Coords, EltTy.bits .i32 = 32 ∨ (Rect.block (s := S32x4096) S32x256.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x256x256.size a ≤ S32x4096x256.size a
  hwx1_4 : ∀ i : grid1.Coords, EltTy.bits .f32 = 32 ∨ (Rect.block (s := S32x4096x256) S32x256x256.size (cc1_transform_4 i) (hinb1_4 i)).WholeWords (EltTy.packing .f32)

variable [Facts₀]

abbrev win0_0 : Pipeline.Window sig grid0 :=
  Pipeline.Window.ofSpec (Memref.whole main_arg0) S16x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S32x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S32x256x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x4096x256 : Shape := ⟨3, ![32, 4096, 256]⟩
abbrev S32x4096 : Shape := ⟨2, ![32, 4096]⟩
abbrev S256 : Shape := ⟨1, ![256]⟩
abbrev S_ : Shape := ⟨0, ![]⟩
abbrev S32x4096x1 : Shape := ⟨3, ![32, 4096, 1]⟩
abbrev S1x1x256 : Shape := ⟨3, ![1, 1, 256]⟩

abbrev nBuf : Space → Nat
  | .hbm => 48
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096, .i32⟩
  | .hbm, ⟨2, _⟩ => ⟨S256, .f32⟩
  | .hbm, ⟨3, _⟩ => ⟨S256, .f32⟩
  | .hbm, ⟨4, _⟩ => ⟨S_, .i32⟩
  | .hbm, ⟨5, _⟩ => ⟨S32x4096, .i32⟩
  | .hbm, ⟨6, _⟩ => ⟨S32x4096, .i1⟩
  | .hbm, ⟨7, _⟩ => ⟨S32x4096, .f32⟩
  | .hbm, ⟨8, _⟩ => ⟨S32x4096x1, .f32⟩
  | .hbm, ⟨9, _⟩ => ⟨S_, .f32⟩
  | .hbm, ⟨10, _⟩ => ⟨S_, .f32⟩
  | .hbm, ⟨11, _⟩ => ⟨S32x4096x256, .f32⟩
  | .hbm, ⟨12, _⟩ => ⟨S32x4096x256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S1x1x256, .f32⟩
  | .hbm, ⟨18, _⟩ => ⟨S32x4096x256, .f32⟩
  | .hbm, ⟨19, _⟩ => ⟨S32x4096x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S1x1x256, .f32⟩
  | .hbm, ⟨28, _⟩ => ⟨S32x4096x256, .f32⟩
  | .hbm, ⟨29, _⟩ => ⟨S32x4096x256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S1x1x256, .f32⟩
  | .hbm, ⟨35, _⟩ => ⟨S32x4096x256, .f32⟩
  | .hbm, ⟨36, _⟩ => ⟨S32x4096x256, .f32⟩
  | .hbm, ⟨37, _⟩ => ⟨S1x1x256, .f32⟩
  | .hbm, ⟨38, _⟩ => ⟨S32x4096x256, .f32⟩
  | .hbm, ⟨39, _⟩ => ⟨S32x4096x256, .f32⟩
  | .hbm, ⟨40, _⟩ => ⟨S1x1x256, .f32⟩
  | .hbm, ⟨41, _⟩ => ⟨S32x4096x256, .f32⟩
  | .hbm, ⟨42, _⟩ => ⟨S32x4096x256, .f32⟩
  | .hbm, ⟨43, _⟩ => ⟨S_, .f32⟩
  | .hbm, ⟨44, _⟩ => ⟨S32x4096x1, .f32⟩
  | .hbm, ⟨45, _⟩ => ⟨S32x4096x1, .i1⟩
  | .hbm, ⟨46, _⟩ => ⟨S32x4096x256, .i1⟩
  | .hbm, ⟨47, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  reducesTo_S32x4096x1_S_d0_1_2 : S32x4096x1.ReducesTo [0, 1, 2] S_
  h_S_ : 0 < S_.numel
  bcast_S32x4096x1_S32x4096x256_0_1_2 : S32x4096x1.BroadcastsInDim S32x4096x256 (![0, 1, 2] : Fin 3 → Fin S32x4096x256.rank)
  reducesTo_S32x4096x256_S256_d0_1 : S32x4096x256.ReducesTo [0, 1] S256
  bcast_S_S256 : S_.BroadcastsInDim S256 (![] : Fin 0 → Fin S256.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S_S32x4096x1 : S_.BroadcastsInDim S32x4096x1 (![] : Fin 0 → Fin S32x4096x1.rank)

variable [Facts₀]

class Facts : Prop extends Facts₀ where

variable [Facts]
-- ==== Proof.MaskWord.lean ====
/-
  The float mask of a mask word.

  Both programs turn an integer mask word `w` into a float weight by comparing it with zero (signed, strictly
  greater) and converting the one-bit answer `b`: the kernel widens `b` to 32 bits without sign and converts it
  as a signed integer, the reference converts `b` itself as an unsigned one. A one-bit word is `0` or `1`, and on
  both roads `0 ↦ 0` and `1 ↦ 1`: the two weights are ONE real number `msk w ∈ {0, 1}` (`kernel_weight`,
  `reference_weight`), and the weight is `1` exactly where the compare bit is set (`msk_eq_one_iff`).
-/
import Idealize.ShloMosaic.PureOps.Ideal
import Idealize.ShloMosaic.Lib.ValueIdx

namespace MaskWord

open Idealize.ShloMosaic Idealize.ShloMosaic.ValueIdx

/-- The compare bit of a mask word: `w > 0`, signed. -/
abbrev bit (w : BitVec 32) : BitVec 1 := IntOp.cmpi .sgt w 0#32

/-- The weight of a mask word, as a real number: the compare bit's value. -/
def msk (w : BitVec 32) : ℝ := ((bit w).toNat : ℝ)

theorem bit_cases (b : BitVec 1) : b = 0#1 ∨ b = 1#1 := by
  by_cases h : b = 1#1
  · exact .inr h
  · exact .inl (eq_zero_of_ne_one h)

theorem msk_cases (w : BitVec 32) : msk w = 0 ∨ msk w = 1 := by
  unfold msk
  rcases bit_cases (bit w) with h | h <;> rw [h]
  · left; simp
  · right; simp

theorem msk_nonneg (w : BitVec 32) : 0 ≤ msk w := by
  rcases msk_cases w with h | h <;> rw [h] <;> norm_num

theorem msk_eq_one_iff (w : BitVec 32) : msk w = 1 ↔ bit w = 1#1 := by
  unfold msk
  rcases bit_cases (bit w) with h | h <;> rw [h] <;> simp

/-- Widening a one-bit word without sign and reading it signed gives the bit's value. -/
theorem toInt_setWidth_bit (b : BitVec 1) : (((b.setWidth 32).toInt : ℤ) : ℝ) = (b.toNat : ℝ) := by
  rcases bit_cases b with h | h <;> rw [h] <;> simp

/-- The kernel's weight: the compare bit widened, converted signed. -/
theorem kernel_weight (w : BitVec 32) :
    FloatOps.sitofp (F := Ideal) .f32 ((bit w).setWidth 32) = ((msk w : ℝ) : EReal) := by
  show (((((bit w).setWidth 32).toInt : ℤ) : ℝ) : EReal) = _
  rw [toInt_setWidth_bit]; rfl

/-- The reference's weight: the compare bit converted unsigned. -/
theorem reference_weight (w : BitVec 32) :
    FloatOps.uitofp (F := Ideal) .f32 (bit w) = ((msk w : ℝ) : EReal) := rfl

end MaskWord
-- ==== Proof.LibSumLeadingAxes.lean ====
/-
  Sums over the leading axes of an array, by coordinates.

  A reduction over the first two axes of a rank-3 array `[A, B, C]` adds, at the result index `j`, the entries at the
  source indices that drop to `j`. Those are exactly the `(p, q, j₀)`: the set is the image of `Fin A × Fin B`, so the
  sum is the double sum `∑ p, ∑ q, x (p, q, j₀)` (`sum_filter_drop01`) — stated for ANY map `d` from source to result
  indices whose one coordinate is the source's last, which a vector reduction's and a host reduction's dropping maps
  both are. A total sum over an array with unit axes is the double sum over its two long axes
  (`sum_idx3_unit`: `[A, B, 1]`; `sum_idx4_units`: `[1, A, B, 1]`). And a sum over `Fin (m · n)` is the double sum
  over quotient and remainder, `k = n·a + b` (`sum_fin_mul`): how a sum over a long axis splits into tiles.
-/
import Idealize.ShloMosaic.PureOps.Ideal
import Idealize.ShloMosaic.Lib.ValueIdx

namespace SumLeadingAxes

open Idealize.ShloMosaic Idealize.ShloMosaic.ValueIdx

variable {M : Type} [AddCommMonoid M] {A B C : ℕ}

/-- The entries that drop to `j` under a map keeping the last coordinate are the `(p, q, j₀)`. -/
theorem sum_filter_drop01 (d : (⟨3, ![A, B, C]⟩ : Shape).Idx → (⟨1, ![C]⟩ : Shape).Idx)
    (hd : ∀ i, ((d i (0 : Fin 1) : Fin C) : ℕ) = ((i (2 : Fin 3) : Fin C) : ℕ))
    (x : (⟨3, ![A, B, C]⟩ : Shape).Idx → M) (j : (⟨1, ![C]⟩ : Shape).Idx) :
    (∑ i ∈ Finset.univ.filter (fun i => d i = j), x i) = ∑ p : Fin A, ∑ q : Fin B, x (ix3 p q (j (0 : Fin 1))) := by
  classical
  refine Eq.trans ?_ (Fintype.sum_prod_type' (fun (p : Fin A) (q : Fin B) => x (ix3 p q (j (0 : Fin 1)))))
  have hback : ∀ i : (⟨3, ![A, B, C]⟩ : Shape).Idx, d i = j → ix3 (i (0 : Fin 3)) (i (1 : Fin 3)) (j (0 : Fin 1)) = i := by
    intro i hi
    have h2 : (j (0 : Fin 1) : Fin C) = i (2 : Fin 3) := Fin.ext (by rw [← hi]; exact hd i)
    rw [h2]; exact (eq_ix3 i).symm
  refine Finset.sum_nbij' (fun i => (i (0 : Fin 3), i (1 : Fin 3))) (fun pq => ix3 pq.1 pq.2 (j (0 : Fin 1))) ?_ ?_ ?_ ?_ ?_
  · intro i _; exact Finset.mem_univ _
  · intro pq _
    refine Finset.mem_filter.mpr ⟨Finset.mem_univ _, ?_⟩
    funext b
    match b with
    | ⟨0, _⟩ => exact Fin.ext (hd _)
  · intro i hi; exact hback i (Finset.mem_filter.mp hi).2
  · intro pq _; rfl
  · intro i hi; exact congrArg x (hback i (Finset.mem_filter.mp hi).2).symm

/-- A total sum over `[A, B, 1]` is the double sum over its two long axes. -/
theorem sum_idx3_unit (f : (⟨3, ![A, B, 1]⟩ : Shape).Idx → M) :
    ∑ i, f i = ∑ p : Fin A, ∑ q : Fin B, f (ix3 p q (0 : Fin 1)) := by
  classical
  refine Eq.trans ?_ (Fintype.sum_prod_type' (fun (p : Fin A) (q : Fin B) => f (ix3 p q (0 : Fin 1))))
  have hback : ∀ i : (⟨3, ![A, B, 1]⟩ : Shape).Idx, ix3 (i (0 : Fin 3)) (i (1 : Fin 3)) (0 : Fin 1) = i := by
    intro i
    have h2 : (0 : Fin 1) = i (2 : Fin 3) := Subsingleton.elim _ _
    rw [h2]; exact (eq_ix3 i).symm
  refine Finset.sum_nbij' (fun i => (i (0 : Fin 3), i (1 : Fin 3))) (fun pq => ix3 pq.1 pq.2 (0 : Fin 1)) ?_ ?_ ?_ ?_ ?_
  · intro i _; exact Finset.mem_univ _
  · intro pq _; exact Finset.mem_univ _
  · intro i _; exact hback i
  · intro pq _; rfl
  · intro i _; exact congrArg f (hback i).symm

/-- A total sum over `[1, A, B, 1]` is the double sum over its two long axes. -/
theorem sum_idx4_units (f : (⟨4, ![1, A, B, 1]⟩ : Shape).Idx → M) :
    ∑ i, f i = ∑ p : Fin A, ∑ q : Fin B, f (ix4 (0 : Fin 1) p q (0 : Fin 1)) := by
  classical
  refine Eq.trans ?_ (Fintype.sum_prod_type' (fun (p : Fin A) (q : Fin B) => f (ix4 (0 : Fin 1) p q (0 : Fin 1))))
  have hback : ∀ i : (⟨4, ![1, A, B, 1]⟩ : Shape).Idx, ix4 (0 : Fin 1) (i (1 : Fin 4)) (i (2 : Fin 4)) (0 : Fin 1) = i := by
    intro i
    funext a
    match a with
    | ⟨0, _⟩ => exact Subsingleton.elim (α := Fin 1) _ _
    | ⟨1, _⟩ => rfl
    | ⟨2, _⟩ => rfl
    | ⟨3, _⟩ => exact Subsingleton.elim (α := Fin 1) _ _
  refine Finset.sum_nbij' (fun i => (i (1 : Fin 4), i (2 : Fin 4))) (fun pq => ix4 (0 : Fin 1) pq.1 pq.2 (0 : Fin 1)) ?_ ?_ ?_ ?_ ?_
  · intro i _; exact Finset.mem_univ _
  · intro pq _; exact Finset.mem_univ _
  · intro i _; exact hback i
  · intro pq _; rfl
  · intro i _; exact congrArg f (hback i).symm

/-- A sum over `Fin (m · n)` is the double sum over quotient `a` and remainder `b` of `k = n·a + b`. -/
theorem sum_fin_mul {m n : ℕ} (g : Fin (m * n) → M) :
    ∑ k, g k = ∑ a : Fin m, ∑ b : Fin n, g (finProdFinEquiv (a, b)) :=
  (Equiv.sum_comp finProdFinEquiv g).symm.trans (Fintype.sum_prod_type _)

/-- The position that pair stands for: `b + n·a`. -/
theorem finProdFinEquiv_val {m n : ℕ} (a : Fin m) (b : Fin n) : ((finProdFinEquiv (a, b) : Fin (m * n)) : ℕ) = b.val + n * a.val := rfl

end SumLeadingAxes
-- ==== Proof.RefFormula.lean ====
/-
  The reference, read at an entry.

  With `w(b, t)` the weight of the mask word at (batch row b, time step t) — 1 where the word is positive, else 0 —
  the reference computes, over all 32 rows and 4096 steps,
      n = ∑ w ,   S_f = ∑ x·w ,   mean_f = S_f / n ,   C_f = ∑ ((x − mean_f)·(x − mean_f))·w ,
  and returns at (b, t, f) the normalised value `((x − mean_f) · rsqrt (C_f / n + ε)) · γ_f + β_f` where `w(b, t) = 1`
  and `x` itself elsewhere (the select's predicate is `0 < w`). The sums over the two leading axes into the 256
  features are read as double sums over their coordinates; the host's initial value of each sum is the zero word.
-/
import proofs.«419955_j52931176956564_4_alg».proof.Proof.RefRead
import proofs.«419955_j52931176956564_4_alg».proof.Proof.MaskWord
import proofs.«419955_j52931176956564_4_alg».proof.Proof.LibSumLeadingAxes
import Idealize.ShloMosaic.Lib.IdealHost
import Idealize.ShloMosaic.Lib.ValueIdx
import Idealize.ShloMosaic.PureOps.Ideal.Laws

set_option maxRecDepth 16384

noncomputable section

namespace Cert.ReferenceIdeal.Formula

open Cert.ReferenceIdeal Cert.ReferenceIdeal.Gen Cert.ReferenceIdeal.ReadP MaskWord SumLeadingAxes
open Idealize.ShloMosaic Idealize.ShloMosaic.ValueIdx

variable (x0 : S32x4096x256.Idx → EReal) (x1 : S32x4096.Idx → BitVec 32) (x2 x3 : S256.Idx → EReal)

/-! ## The weight -/

theorem weight_apply (b : Fin 32) (t : Fin 4096) :
    val_main_v2 (F := Ideal) x1 (ix2 b t) = ((msk (x1 (ix2 b t)) : ℝ) : EReal) := by
  rw [val_main_v2_apply, val_main_v1_apply, val_main_v0_apply, val_main_c_apply]
  exact reference_weight _

theorem weight3_apply (b : Fin 32) (t : Fin 4096) (u : Fin 1) :
    val_main_v3 (F := Ideal) x1 (ix3 b t u) = ((msk (x1 (ix2 b t)) : ℝ) : EReal) := by
  rw [val_main_v3_apply]
  have e : idx_main_v3 (ix3 b t u) = ix2 b t := by
    funext a; match a with | ⟨0, _⟩ => rfl | ⟨1, _⟩ => rfl
  rw [e]; exact weight_apply x1 b t

theorem weight5_apply (b : Fin 32) (t : Fin 4096) (f : Fin 256) :
    val_main_v5 (F := Ideal) x1 (ix3 b t f) = ((msk (x1 (ix2 b t)) : ℝ) : EReal) := by
  rw [val_main_v5_apply]
  have e : idx_main_v5 (ix3 b t f) = ix3 b t (0 : Fin 1) := by
    funext a; match a with | ⟨0, _⟩ => rfl | ⟨1, _⟩ => rfl | ⟨2, _⟩ => rfl
  rw [e]; exact weight3_apply x1 b t 0

theorem weight14_apply (b : Fin 32) (t : Fin 4096) (f : Fin 256) :
    val_main_v14 (F := Ideal) x1 (ix3 b t f) = ((msk (x1 (ix2 b t)) : ℝ) : EReal) := by
  rw [val_main_v14_apply]
  have e : idx_main_v14 (ix3 b t f) = ix3 b t (0 : Fin 1) := by
    funext a; match a with | ⟨0, _⟩ => rfl | ⟨1, _⟩ => rfl | ⟨2, _⟩ => rfl
  rw [e]; exact weight3_apply x1 b t 0

/-! ## The count and the sums -/

/-- The count: the number of selected (row, step) pairs. -/
def cnt : EReal := ∑ b : Fin 32, ∑ t : Fin 4096, ((msk (x1 (ix2 b t)) : ℝ) : EReal)

theorem count_apply (j : S_.Idx) : val_main_v4 (F := Ideal) x1 j = cnt x1 := by
  rw [val_main_v4_apply, val_main_cst_apply, sum_idx3_unit]
  simp only [weight3_apply]
  show Ideal.ofBits .f32 0x00000000#32 + _ = _
  rw [Ideal.ofBits_zero_f32, zero_add]
  rfl

/-- A host sum over the two leading axes, at feature `f`: the initial value plus the double sum over rows and steps. -/
theorem reduce01_apply (y : S32x4096x256.Idx → EReal) (init : S_.Idx → EReal) (f : Fin 256) :
    Host.reduceAdd (F := Ideal) (φ := .f32) y init reducesTo_S32x4096x256_S256_d0_1 h_S_ (ix1 f)
      = init (Shape.Idx.first h_S_) + ∑ b : Fin 32, ∑ t : Fin 4096, y (ix3 b t f) := by
  rw [hostReduceAdd_apply]
  unfold Ideal.hostReduceAdd
  refine congrArg (init (Shape.Idx.first h_S_) + ·) ?_
  exact sum_filter_drop01 reducesTo_S32x4096x256_S256_d0_1.drop
    (fun i => reducesTo_S32x4096x256_S256_d0_1.drop_apply_val_of_eq i 0 2) y (ix1 f)

/-- The weighted sum per feature. -/
def sum1 (f : Fin 256) : EReal := ∑ b : Fin 32, ∑ t : Fin 4096, x0 (ix3 b t f) * ((msk (x1 (ix2 b t)) : ℝ) : EReal)

theorem sum_apply (f : Fin 256) : val_main_v7 (F := Ideal) x0 x1 (ix1 f) = sum1 x0 x1 f := by
  unfold val_main_v7
  rw [reduce01_apply, val_main_cst_0_apply]
  simp only [val_main_v6_apply, weight5_apply, Ideal.mulf_def]
  show Ideal.ofBits .f32 0x00000000#32 + _ = _
  rw [Ideal.ofBits_zero_f32, zero_add]
  rfl

/-- The mean per feature. -/
def mean (f : Fin 256) : EReal := Ideal.div (sum1 x0 x1 f) (cnt x1)

theorem mean_apply (f : Fin 256) : val_main_v9 (F := Ideal) x0 x1 (ix1 f) = mean x0 x1 f := by
  rw [val_main_v9_apply, sum_apply, val_main_v8_apply, count_apply]
  rfl

theorem mean11_apply (b : Fin 32) (t : Fin 4096) (f : Fin 256) :
    val_main_v11 (F := Ideal) x0 x1 (ix3 b t f) = mean x0 x1 f := by
  rw [val_main_v11_apply, val_main_v10_apply]
  have e : idx_main_v10 (idx_main_v11 (ix3 b t f)) = ix1 f := by
    funext a; match a with | ⟨0, _⟩ => rfl
  rw [e]; exact mean_apply x0 x1 f

theorem mean20_apply (b : Fin 32) (t : Fin 4096) (f : Fin 256) :
    val_main_v20 (F := Ideal) x0 x1 (ix3 b t f) = mean x0 x1 f := by
  rw [val_main_v20_apply, val_main_v19_apply]
  have e : idx_main_v19 (idx_main_v20 (ix3 b t f)) = ix1 f := by
    funext a; match a with | ⟨0, _⟩ => rfl
  rw [e]; exact mean_apply x0 x1 f

/-- The weighted sum of squared deviations per feature. -/
def cen2 (f : Fin 256) : EReal :=
  ∑ b : Fin 32, ∑ t : Fin 4096,
    ((x0 (ix3 b t f) - mean x0 x1 f) * (x0 (ix3 b t f) - mean x0 x1 f)) * ((msk (x1 (ix2 b t)) : ℝ) : EReal)

theorem cen_apply (f : Fin 256) : val_main_v16 (F := Ideal) x0 x1 (ix1 f) = cen2 x0 x1 f := by
  unfold val_main_v16
  rw [reduce01_apply, val_main_cst_1_apply]
  simp only [val_main_v15_apply, val_main_v13_apply, val_main_v12_apply, mean11_apply, weight14_apply,
    Ideal.mulf_def, Ideal.subf_def]
  show Ideal.ofBits .f32 0x00000000#32 + _ = _
  rw [Ideal.ofBits_zero_f32, zero_add]
  rfl

/-! ## The result -/

/-- The variance's offset, as the word both programs carry. -/
abbrev eps : EReal := Ideal.ofBits .f32 0x3727C5AC#32

/-- The reciprocal standard deviation per feature. -/
def inv (f : Fin 256) : EReal := Ideal.rsqrt (Ideal.div (cen2 x0 x1 f) (cnt x1) + eps)

theorem inv24_apply (f : Fin 256) : val_main_v24 (F := Ideal) x0 x1 (ix1 f) = inv x0 x1 f := by
  rw [val_main_v24_apply]
  rw [val_main_v23_apply]
  rw [val_main_v18_apply]
  rw [cen_apply]
  rw [val_main_v17_apply]
  rw [count_apply]
  simp only [Ideal.hostUnary_rsqrt_def, Ideal.addf_def, Ideal.hostDivf_def]
  have e22 : val_main_v22 (F := Ideal) (ix1 f) = eps :=
    (val_main_v22_apply (F := Ideal) (ix1 f)).trans (val_main_cst_2_apply (F := Ideal) _)
  rw [e22]
  unfold inv
  rfl

theorem inv26_apply (b : Fin 32) (t : Fin 4096) (f : Fin 256) :
    val_main_v26 (F := Ideal) x0 x1 (ix3 b t f) = inv x0 x1 f := by
  rw [val_main_v26_apply, val_main_v25_apply]
  have e : idx_main_v25 (idx_main_v26 (ix3 b t f)) = ix1 f := by
    funext a; match a with | ⟨0, _⟩ => rfl
  rw [e]; exact inv24_apply x0 x1 f

theorem gamma29_apply (b : Fin 32) (t : Fin 4096) (f : Fin 256) :
    val_main_v29 (F := Ideal) x2 (ix3 b t f) = x2 (ix1 f) := by
  rw [val_main_v29_apply, val_main_v28_apply]
  have e : idx_main_v28 (idx_main_v29 (ix3 b t f)) = ix1 f := by
    funext a; match a with | ⟨0, _⟩ => rfl
  rw [e]

theorem beta32_apply (b : Fin 32) (t : Fin 4096) (f : Fin 256) :
    val_main_v32 (F := Ideal) x3 (ix3 b t f) = x3 (ix1 f) := by
  rw [val_main_v32_apply, val_main_v31_apply]
  have e : idx_main_v31 (idx_main_v32 (ix3 b t f)) = ix1 f := by
    funext a; match a with | ⟨0, _⟩ => rfl
  rw [e]

/-- The normalised value at an entry. -/
def normed (b : Fin 32) (t : Fin 4096) (f : Fin 256) : EReal :=
  ((x0 (ix3 b t f) - mean x0 x1 f) * inv x0 x1 f) * x2 (ix1 f) + x3 (ix1 f)

theorem normed_apply (b : Fin 32) (t : Fin 4096) (f : Fin 256) :
    val_main_v33 (F := Ideal) x0 x1 x2 x3 (ix3 b t f) = normed x0 x1 x2 x3 b t f := by
  rw [val_main_v33_apply, val_main_v30_apply, val_main_v27_apply, val_main_v21_apply, mean20_apply, inv26_apply,
    gamma29_apply, beta32_apply]
  rfl

/-- The select's predicate at an entry: the weight is positive. -/
theorem pred_apply (b : Fin 32) (t : Fin 4096) (f : Fin 256) :
    val_main_call0_v0 (F := Ideal) x1 (ix3 b t f) = 1#1 ↔ msk (x1 (ix2 b t)) = 1 := by
  rw [val_main_call0_v0_apply, val_main_v35_apply, val_main_v34_apply, val_main_cst_3_apply]
  have e : idx_main_call0_v0 (ix3 b t f) = ix3 b t (0 : Fin 1) := by
    funext a; match a with | ⟨0, _⟩ => rfl | ⟨1, _⟩ => rfl | ⟨2, _⟩ => rfl
  rw [e, weight3_apply]
  show Ideal.cmp .ogt ((msk (x1 (ix2 b t)) : ℝ) : EReal) (Ideal.ofBits .f32 0x00000000#32) = 1#1 ↔ _
  rw [Ideal.ofBits_zero_f32]
  unfold Ideal.cmp
  rcases msk_cases (x1 (ix2 b t)) with h | h <;> rw [h] <;> simp

/-- The reference's result at an entry. -/
theorem result_apply (b : Fin 32) (t : Fin 4096) (f : Fin 256) :
    val_main_v36 (F := Ideal) x0 x1 x2 x3 (ix3 b t f)
      = if msk (x1 (ix2 b t)) = 1 then normed x0 x1 x2 x3 b t f else x0 (ix3 b t f) := by
  rw [val_main_v36_apply, normed_apply]
  unfold Scalar.select
  by_cases h : msk (x1 (ix2 b t)) = 1
  · have hc : val_main_call0_v0 (F := Ideal) x1 (ix3 b t f) = 1 := (pred_apply x1 b t f).mpr h
    rw [if_pos hc, if_pos h]
  · have hc : ¬val_main_call0_v0 (F := Ideal) x1 (ix3 b t f) = 1 := fun hc => h ((pred_apply x1 b t f).mp hc)
    rw [if_neg hc, if_neg h]

end Cert.ReferenceIdeal.Formula

end
-- ==== Proof.LibLayoutRank3.lean ====
/-
  Rank-3 layout operations with unit axes, read at an index written by its coordinates.

  A value per (row, column) seen as a rank-3 array with a trailing unit axis, `[a, b] → [a, b, 1]`, holds at
  `(p, q, 0)` what the operand holds at `(p, q)`; a vector seen with two leading unit axes, `[c] → [1, 1, c]`, holds at
  `(0, 0, r)` what the operand holds at `r`: a shape cast keeps row-major positions, and a unit axis contributes
  nothing to one. A broadcast along the trailing axis, `[a, b, 1] → [a, b, c]`, reads `(p, q, r)` at `(p, q, 0)`, and
  one along the two leading axes, `[1, 1, c] → [a, b, c]`, at `(0, 0, r)`: a broadcast reads the operand at `0` on
  its unit axes and at the result's coordinate elsewhere (where a long axis happens to have extent one the two
  agree, its only coordinate being `0`).
-/
import Idealize.ShloMosaic.Lib.Pipeline.Value
import Idealize.ShloMosaic.Lib.ValueIdx

namespace LayoutRank3

open Idealize.ShloMosaic Idealize.ShloMosaic.ValueIdx

variable {α : Type} {A B C : ℕ}

/-- `[a, b] → [a, b, 1]` at `(p, q, u)`: the operand at `(p, q)`. -/
theorem shapeCast_ab_ab1_apply (v : (⟨2, ![A, B]⟩ : Shape).Idx → α)
    (h : (⟨2, ![A, B]⟩ : Shape).ShapeCasts ⟨3, ![A, B, 1]⟩) (p : Fin A) (q : Fin B) (u : Fin 1) :
    shapeCast ⟨3, ![A, B, 1]⟩ v h (ix3 p q u) = v (ix2 p q) := by
  refine shapeCast_apply v h _ (ix2 p q) ?_
  rw [Shape.rowMajor_val_two, Shape.rowMajor_val_three]
  show p.val * B + q.val = (p.val * B + q.val) * 1 + u.val
  have := u.isLt; omega

/-- `[c] → [1, 1, c]` at `(u, u', r)`: the operand at `r`. -/
theorem shapeCast_c_11c_apply (v : (⟨1, ![C]⟩ : Shape).Idx → α)
    (h : (⟨1, ![C]⟩ : Shape).ShapeCasts ⟨3, ![1, 1, C]⟩) (u u' : Fin 1) (r : Fin C) :
    shapeCast ⟨3, ![1, 1, C]⟩ v h (ix3 u u' r) = v (ix1 r) := by
  refine shapeCast_apply v h _ (ix1 r) ?_
  rw [Shape.rowMajor_val_one, Shape.rowMajor_val_three]
  show r.val = (u.val * 1 + u'.val) * C + r.val
  have hu : u.val = 0 := by have := u.isLt; omega
  have hu' : u'.val = 0 := by have := u'.isLt; omega
  rw [hu, hu']; simp

/-- `[a, b, 1] → [a, b, c]` at `(p, q, r)`: the operand at `(p, q, 0)`. -/
theorem broadcastTo_ab1_abc_apply (x : (⟨3, ![A, B, 1]⟩ : Shape).Idx → α)
    (h : (⟨3, ![A, B, 1]⟩ : Shape).Broadcasts ⟨3, ![A, B, C]⟩) (p : Fin A) (q : Fin B) (r : Fin C) :
    broadcastTo ⟨3, ![A, B, C]⟩ x h (ix3 p q r) = x (ix3 p q (0 : Fin 1)) := by
  refine broadcastTo_apply x h _ (ix3 p q (0 : Fin 1)) ?_
  intro a
  match a with
  | ⟨0, _⟩ =>
    show p.val = if A = 1 then 0 else p.val
    by_cases hA : A = 1
    · rw [if_pos hA]; have := p.isLt; omega
    · rw [if_neg hA]
  | ⟨1, _⟩ =>
    show q.val = if B = 1 then 0 else q.val
    by_cases hB : B = 1
    · rw [if_pos hB]; have := q.isLt; omega
    · rw [if_neg hB]
  | ⟨2, _⟩ =>
    show (0 : ℕ) = if (1 : ℕ) = 1 then 0 else r.val
    rw [if_pos rfl]

/-- `[1, 1, c] → [a, b, c]` at `(p, q, r)`: the operand at `(0, 0, r)`. -/
theorem broadcastTo_11c_abc_apply (x : (⟨3, ![1, 1, C]⟩ : Shape).Idx → α)
    (h : (⟨3, ![1, 1, C]⟩ : Shape).Broadcasts ⟨3, ![A, B, C]⟩) (p : Fin A) (q : Fin B) (r : Fin C) :
    broadcastTo ⟨3, ![A, B, C]⟩ x h (ix3 p q r) = x (ix3 (0 : Fin 1) (0 : Fin 1) r) := by
  refine broadcastTo_apply x h _ (ix3 (0 : Fin 1) (0 : Fin 1) r) ?_
  intro a
  match a with
  | ⟨0, _⟩ =>
    show (0 : ℕ) = if (1 : ℕ) = 1 then 0 else p.val
    rw [if_pos rfl]
  | ⟨1, _⟩ =>
    show (0 : ℕ) = if (1 : ℕ) = 1 then 0 else q.val
    rw [if_pos rfl]
  | ⟨2, _⟩ =>
    show r.val = if C = 1 then 0 else r.val
    by_cases hC : C = 1
    · rw [if_pos hC]; have := r.isLt; omega
    · rw [if_neg hC]

end LayoutRank3
-- ==== Proof.BlendValue.lean ====
/-
  The normalise-and-select region, read as a value.

  Each grid point handles a band of 256 time steps for all 32 batch rows and all 256 features. With `w` the weight of
  the mask word at (batch row, time step) — 1 where the word is positive, else 0 — the region stores, at (b, t, f),
      w · (x · scale_f + shift_f) + (1 − w) · x ,
  the blend of the normalised value and the value itself (`blendAt`); scale and shift are per-feature vectors the
  region reads whole at every point. Point `n` reads and writes time steps `256 n … 256 n + 255`, so its block is a
  restriction of ONE function of the whole arrays (`G`); the sixteen bands tile the time axis, every point writes its
  band back, and the result array ends holding `G` everywhere (`final`).
-/
import proofs.«419955_j52931176956564_4_alg».proof.Proof.Gen.KernelIdeal.Frame
import proofs.«419955_j52931176956564_4_alg».proof.Proof.MaskWord
import proofs.«419955_j52931176956564_4_alg».proof.Proof.LibLayoutRank3
import Idealize.ShloMosaic.Lib.Pipeline.Value
import Idealize.ShloMosaic.Lib.ValueIdx

set_option maxRecDepth 16384

noncomputable section

namespace Cert.KernelIdeal.Blend

open Cert.KernelIdeal Cert.KernelIdeal.Gen MaskWord LayoutRank3
open Idealize.ShloMosaic Idealize.ShloMosaic.TcCoe Idealize.ShloMosaic.ValueIdx Idealize.SL.Sem
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The blend at one entry: value `x`, mask word `w`, scale `sc` and shift `sh` of the entry's feature. -/
def blendAt (x : EReal) (w : BitVec 32) (sc sh : EReal) : EReal :=
  ((msk w : ℝ) : EReal) * (x * sc + sh) + (Ideal.ofBits .f32 0x3F800000#32 - ((msk w : ℝ) : EReal)) * x

/-- The stored value at entry (b, t, f) of a point's block is the blend of the block entries it reads. -/
theorem pay1_apply (x0 : Vec Ideal S32x256x256 .f32) (x1 : Vec Ideal S32x256 .i32) (x7 x9 : Vec Ideal S256 .f32)
    (b : Fin 32) (t : Fin 256) (f : Fin 256) :
    k1_pay1 (F := Ideal) x0 x1 x7 x9 (ix3 b t f)
      = blendAt (x0 (ix3 b t f)) (x1 (ix2 b t)) (x7 (ix1 f)) (x9 (ix1 f)) := by
  unfold k1_pay1 blendAt
  simp only [addf_apply, mulf_apply, subf_apply, broadcast_apply, broadcastTo_ab1_abc_apply, broadcastTo_11c_abc_apply,
    shapeCast_ab_ab1_apply, shapeCast_c_11c_apply, shapeCast_self, sitofp_apply, extui_apply, Idealize.ShloMosaic.cmpi,
    kernel_weight]
  rfl

variable (V : (c : Dev nD) → (b : Ref sig .tc) → Buf (Elt Ideal) ((c : Thread nD τ).loc b))

/-- The four arrays as the region finds them: the values, the mask words, the scale and the shift. -/
abbrev xarr (c : Dev nD) : Vec Ideal S32x4096x256 .f32 := V c main_arg0
abbrev marr (c : Dev nD) : Vec Ideal S32x4096 .i32 := V c main_arg1
abbrev scarr (c : Dev nD) : Vec Ideal S256 .f32 := V c main_v27
abbrev sharr (c : Dev nD) : Vec Ideal S256 .f32 := V c main_v29

/-- What the region leaves in the result array: the blend, entry by entry, of the four arrays. -/
def G (c : Dev nD) : S32x4096x256.Idx → EReal := fun i =>
  blendAt (xarr V c i) (marr V c (ix2 (i 0) (i 1))) (scarr V c (ix1 (i 2))) (sharr V c (ix1 (i 2)))

/-- The printed index maps, decided over the sixteen points: point `n` takes band `n` of the time axis of the values,
    the mask and the result, and the whole scale and shift. -/
theorem idx_facts : ∀ t : Fin cfg1.N,
      win1_0.index t (0 : Fin 3) = 0 ∧ win1_0.index t (1 : Fin 3) = t.val ∧ win1_0.index t (2 : Fin 3) = 0
    ∧ win1_1.index t (0 : Fin 2) = 0 ∧ win1_1.index t (1 : Fin 2) = t.val
    ∧ win1_2.index t (0 : Fin 1) = 0 ∧ win1_3.index t (0 : Fin 1) = 0
    ∧ win1_4.index t (0 : Fin 3) = 0 ∧ win1_4.index t (1 : Fin 3) = t.val ∧ win1_4.index t (2 : Fin 3) = 0 :=
  (by decide +kernel : ∀ t : Fin grid1.N, _)

/-- What point `t` writes back is block `t` of `G`. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz3]
  simp only [View.ld_unit_zero (S := S32x256x256) hz3, View.ld_unit_zero (S := S32x256) hz2, View.ld_unit_zero (S := S256) hz1]
  obtain ⟨e00, e01, e02, e10, e11, e2, e3, e40, e41, e42⟩ := idx_facts t
  funext j
  obtain ⟨b, t', f, rfl⟩ : ∃ (b : Fin 32) (t' : Fin 256) (f : Fin 256), j = ix3 b t' f := ⟨j 0, j 1, j 2, eq_ix3 j⟩
  refine (pay1_apply (iblk1 V c 0 t) (iblk1 V c 1 t) (iblk1 V c 2 t) (iblk1 V c 3 t) b t' f).trans ?_
  show blendAt (V c main_arg0 (((cfg1.win 0).blk t).view.emb (ix3 b t' f)))
        (V c main_arg1 (((cfg1.win 1).blk t).view.emb (ix2 b t')))
        (V c main_v27 (((cfg1.win 2).blk t).view.emb (ix1 f)))
        (V c main_v29 (((cfg1.win 3).blk t).view.emb (ix1 f)))
      = G V c (((cfg1.win 4).blk t).view.emb (ix3 b t' f))
  have h0 : ((cfg1.win 0).blk t).view.emb (ix3 b t' f) = ((cfg1.win 4).blk t).view.emb (ix3 b t' f) := by
    funext a; apply Fin.ext
    match a with
    | ⟨0, _⟩ => show win1_0.index t (0 : Fin 3) * 32 + 1 * b.val = win1_4.index t (0 : Fin 3) * 32 + 1 * b.val; omega
    | ⟨1, _⟩ => show win1_0.index t (1 : Fin 3) * 256 + 1 * t'.val = win1_4.index t (1 : Fin 3) * 256 + 1 * t'.val; omega
    | ⟨2, _⟩ => show win1_0.index t (2 : Fin 3) * 256 + 1 * f.val = win1_4.index t (2 : Fin 3) * 256 + 1 * f.val; omega
  have h1 : ((cfg1.win 1).blk t).view.emb (ix2 b t')
      = ix2 ((((cfg1.win 4).blk t).view.emb (ix3 b t' f)) 0) ((((cfg1.win 4).blk t).view.emb (ix3 b t' f)) 1) := by
    funext a; apply Fin.ext
    match a with
    | ⟨0, _⟩ => show win1_1.index t (0 : Fin 2) * 32 + 1 * b.val = win1_4.index t (0 : Fin 3) * 32 + 1 * b.val; omega
    | ⟨1, _⟩ => show win1_1.index t (1 : Fin 2) * 256 + 1 * t'.val = win1_4.index t (1 : Fin 3) * 256 + 1 * t'.val; omega
  have h2 : ((cfg1.win 2).blk t).view.emb (ix1 f) = ix1 ((((cfg1.win 4).blk t).view.emb (ix3 b t' f)) 2) := by
    funext a; apply Fin.ext
    match a with
    | ⟨0, _⟩ => show win1_2.index t (0 : Fin 1) * 256 + 1 * f.val = win1_4.index t (2 : Fin 3) * 256 + 1 * f.val; omega
  have h3 : ((cfg1.win 3).blk t).view.emb (ix1 f) = ix1 ((((cfg1.win 4).blk t).view.emb (ix3 b t' f)) 2) := by
    funext a; apply Fin.ext
    match a with
    | ⟨0, _⟩ => show win1_3.index t (0 : Fin 1) * 256 + 1 * f.val = win1_4.index t (2 : Fin 3) * 256 + 1 * f.val; omega
  rw [h0, h1, h2, h3]
  rfl

/-- An index of the result array is in point `t`'s block iff each coordinate is in the block's range on its axis. -/
theorem mem_blk (t : Fin cfg1.N) (i : S32x4096x256.Idx) :
    i ∈ ((cfg1.win 4).blk t).view.set ↔ ∀ a : Fin 3, win1_4.index t a * S32x256x256.size a ≤ (i a).val
      ∧ (i a).val < win1_4.index t a * S32x256x256.size a + S32x256x256.size a := by
  show i ∈ ((View.whole main_v30).slice (win1_4.rect t)).set ↔ _
  rw [View.set_slice_whole, Rect.mem_set_unit]
  exact Iff.rfl

/-- Every entry is written back by some point: time step `i₁` lies in band `i₁ / 256`. -/
theorem cover (i : S32x4096x256.Idx) :
    ∃ t : Fin cfg1.N, (cfg1.win 4).flush t = true ∧ i ∈ ((cfg1.win 4).blk t).view.set := by
  have hN : grid1.N = 16 := N_1
  have h0 : (i 0).val < 32 := (i 0).isLt
  have h1 : (i 1).val < 4096 := (i 1).isLt
  have h2 : (i 2).val < 256 := (i 2).isLt
  have hlt : (i 1).val / 256 < cfg1.N := by show _ < grid1.N; rw [hN]; omega
  refine ⟨⟨(i 1).val / 256, hlt⟩, flush1_4 _, ?_⟩
  obtain ⟨-, -, -, -, -, -, -, e40, e41, e42⟩ := idx_facts ⟨(i 1).val / 256, hlt⟩
  rw [mem_blk]
  intro a
  match a with
  | ⟨0, _⟩ =>
    show win1_4.index ⟨(i 1).val / 256, hlt⟩ (0 : Fin 3) * 32 ≤ (i 0).val
      ∧ (i 0).val < win1_4.index ⟨(i 1).val / 256, hlt⟩ (0 : Fin 3) * 32 + 32
    omega
  | ⟨1, _⟩ =>
    show win1_4.index ⟨(i 1).val / 256, hlt⟩ (1 : Fin 3) * 256 ≤ (i 1).val
      ∧ (i 1).val < win1_4.index ⟨(i 1).val / 256, hlt⟩ (1 : Fin 3) * 256 + 256
    have e : win1_4.index ⟨(i 1).val / 256, hlt⟩ (1 : Fin 3) = (i 1).val / 256 := e41
    omega
  | ⟨2, _⟩ =>
    show win1_4.index ⟨(i 1).val / 256, hlt⟩ (2 : Fin 3) * 256 ≤ (i 2).val
      ∧ (i 2).val < win1_4.index ⟨(i 1).val / 256, hlt⟩ (2 : Fin 3) * 256 + 256
    omega

/-- The result array after the region: the blend of the arrays the region finds, everywhere. -/
theorem final (c : Dev nD) : (dat1 (F := Ideal) V c).arrAt 4 cfg1.N = G V c :=
  (dat1 (F := Ideal) V c).arrAt_eq_of_cover 4 (G V c) (fun t _ => flushed_eq V c t) cover

end Cert.KernelIdeal.Blend

end
-- ==== Proof.GlueValue.lean ====
/-
  Between the two regions: scale and shift from the statistics.

  The first region leaves, per core, eight identical rows of per-feature sums in two [16, 256] arrays (rows 0–7 core 0,
  rows 8–15 core 1) and a count in a [16, 128] array. The host adds row 0 and row 8 of each — the two cores' totals —
  and the count's entries (0, 0) and (8, 0), and from the totals `S`, `Q`, `n` forms per feature
      mean = S / n ,   var = max (Q / n − mean·mean) 0 ,   inv = rsqrt (var + ε) ,
      scale = γ · inv ,   shift = β − mean · scale ,
  the two vectors the second region reads. Here that chain is named once (`scaleOf`, `shiftOf`) as a function of the
  three arrays, γ and β, and the two vectors the second region finds are shown to be it.
-/
import proofs.«419955_j52931176956564_4_alg».proof.Proof.Gen.KernelIdeal.Frame
import Idealize.ShloMosaic.Lib.StableHlo.Run
import Idealize.ShloMosaic.Lib.Tactic
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- Row 0 plus row 8 of a [16, 256] array: the two cores' totals, per feature. -/
def rowSum (a : Vec F S16x256 .f32) : FVec F S256 .f32 :=
  addf (shapeCast S256 (extractStridedSlice S1x256 ![0, 0] a slices_S16x256_S1x256_0_0) shapeCasts_S1x256_S256)
    (shapeCast S256 (extractStridedSlice S1x256 ![8, 0] a slices_S16x256_S1x256_8_0) shapeCasts_S1x256_S256)

/-- Entry (0, 0) plus entry (8, 0) of the [16, 128] count array: the two cores' counts. -/
def count (n : Vec F S16x128 .f32) : FVec F S_ .f32 :=
  addf (shapeCast S_ (extractStridedSlice S1x1 ![0, 0] n slices_S16x128_S1x1_0_0) shapeCasts_S1x1_S_)
    (shapeCast S_ (extractStridedSlice S1x1 ![8, 0] n slices_S16x128_S1x1_8_0) shapeCasts_S1x1_S_)

/-- The mean per feature: total over count. -/
def meanOf (s : Vec F S16x256 .f32) (n : Vec F S16x128 .f32) : FVec F S256 .f32 :=
  Host.divf (rowSum s) (broadcastInDim S256 ![] bcast_S_S256 (count n))

/-- The reciprocal standard deviation per feature: `rsqrt (max (Q/n − mean·mean) 0 + ε)`. -/
def invStd (s q : Vec F S16x256 .f32) (n : Vec F S16x128 .f32) : FVec F S256 .f32 :=
  Host.rsqrt (addf (maximumf (subf (Host.divf (rowSum q) (broadcastInDim S256 ![] bcast_S_S256 (count n))) (mulf (meanOf s n) (meanOf s n)))
      (broadcastInDim S256 ![] bcast_S_S256 (constant S_ .f32 0x00000000#32)))
    (broadcastInDim S256 ![] bcast_S_S256 (constant S_ .f32 0x3727C5AC#32)))

/-- The scale per feature: `γ · inv`. -/
def scaleOf (s q : Vec F S16x256 .f32) (n : Vec F S16x128 .f32) (g : Vec F S256 .f32) : FVec F S256 .f32 :=
  mulf g (invStd s q n)

/-- The shift per feature: `β − mean · scale`. -/
def shiftOf (s q : Vec F S16x256 .f32) (n : Vec F S16x128 .f32) (g b : Vec F S256 .f32) : FVec F S256 .f32 :=
  subf b (mulf (meanOf s n) (scaleOf s q n g))

variable (m : (ℓ : Loc nD τ sig) → Buf (Elt F) ℓ) (ρ : Dev nD → PrngReg)

set_option maxHeartbeats 1000000 in
/-- The scale the second region finds is `scaleOf` of the first region's three arrays and γ as the first region left them. -/
theorem scale_eq (c : Dev nD) :
    W2 m ρ c (Proc.devRef .tc main_v27)
      = scaleOf (W1 m ρ c (Proc.devRef .tc main_v0_0)) (W1 m ρ c (Proc.devRef .tc main_v0_1))
          (W1 m ρ c (Proc.devRef .tc main_v0_2)) (W1 m ρ c (Proc.devRef .tc main_arg2)) := by
  show StableHlo.after (hostOps1 (F := F)) (W1 m ρ c) (Proc.devRef .tc main_v27) = _
  after_results
  rfl

set_option maxHeartbeats 1000000 in
/-- The shift the second region finds is `shiftOf` of the same arrays, γ and β. -/
theorem shift_eq (c : Dev nD) :
    W2 m ρ c (Proc.devRef .tc main_v29)
      = shiftOf (W1 m ρ c (Proc.devRef .tc main_v0_0)) (W1 m ρ c (Proc.devRef .tc main_v0_1))
          (W1 m ρ c (Proc.devRef .tc main_v0_2)) (W1 m ρ c (Proc.devRef .tc main_arg2)) (W1 m ρ c (Proc.devRef .tc main_arg3)) := by
  show StableHlo.after (hostOps1 (F := F)) (W1 m ρ c) (Proc.devRef .tc main_v29) = _
  after_results
  rfl

end Cert.KernelIdeal.Glue

end
-- ==== Proof.GlueAt.lean ====
/-
  Scale and shift, read at a feature.

  At feature `f`, with `S = s(0, f) + s(8, f)`, `Q = q(0, f) + q(8, f)` the two cores' totals and `n = c(0, 0) + c(8, 0)`
  their counts:
      mean = S / n ,   inv = rsqrt (max (Q / n − mean·mean) 0 + ε) ,   scale = γ_f · inv ,   shift = β_f − mean · scale ,
  every operation the extended reals' own (the host's quotient is `Ideal.div`, its maximum `max`).
-/
import proofs.«419955_j52931176956564_4_alg».proof.Proof.GlueValue
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Glue

open Cert.KernelIdeal Cert.KernelIdeal.Gen
open Idealize.ShloMosaic Idealize.ShloMosaic.ValueIdx

/-- Row 0 plus row 8, at feature `f`. -/
theorem rowSum_apply (a : Vec Ideal S16x256 .f32) (f : Fin 256) :
    rowSum (F := Ideal) a (ix1 f) = a (ix2 (0 : Fin 16) f) + a (ix2 (8 : Fin 16) f) := by
  unfold rowSum
  rw [addf_apply, shapeCast_1a_a_apply, shapeCast_1a_a_apply]
  rw [extractStridedSlice_apply _ a _ _ (ix2 (0 : Fin 16) f) (fun ax => match ax with | ⟨0, _⟩ => rfl | ⟨1, _⟩ => by show f.val = 0 + f.val; omega)]
  rw [extractStridedSlice_apply _ a _ _ (ix2 (8 : Fin 16) f) (fun ax => match ax with | ⟨0, _⟩ => rfl | ⟨1, _⟩ => by show f.val = 0 + f.val; omega)]

/-- Entry (0, 0) plus entry (8, 0). -/
theorem count_apply (n : Vec Ideal S16x128 .f32) (j : S_.Idx) :
    count (F := Ideal) n j = n (ix2 (0 : Fin 16) (0 : Fin 128)) + n (ix2 (8 : Fin 16) (0 : Fin 128)) := by
  unfold count
  rw [addf_apply]
  have hcast : ∀ (v : S1x1.Idx → EReal) (h : S1x1.ShapeCasts S_), shapeCast S_ v h j = v (ix2 (0 : Fin 1) (0 : Fin 1)) := by
    intro v h
    refine shapeCast_apply v h j (ix2 (0 : Fin 1) (0 : Fin 1)) ?_
    rw [Shape.rowMajor_val_two]
    show (0 : ℕ) * 1 + 0 = (Shape.rowMajorPi (![] : Fin 0 → ℕ) j).val
    rw [Shape.rowMajorPi_zero]
  rw [hcast, hcast]
  rw [extractStridedSlice_apply _ n _ _ (ix2 (0 : Fin 16) (0 : Fin 128)) (fun ax => match ax with | ⟨0, _⟩ => rfl | ⟨1, _⟩ => rfl)]
  rw [extractStridedSlice_apply _ n _ _ (ix2 (8 : Fin 16) (0 : Fin 128)) (fun ax => match ax with | ⟨0, _⟩ => rfl | ⟨1, _⟩ => rfl)]

/-- The two cores' totals and count at a feature, as numbers. -/
def tot (a : Vec Ideal S16x256 .f32) (f : Fin 256) : EReal := a (ix2 (0 : Fin 16) f) + a (ix2 (8 : Fin 16) f)
def num (n : Vec Ideal S16x128 .f32) : EReal := n (ix2 (0 : Fin 16) (0 : Fin 128)) + n (ix2 (8 : Fin 16) (0 : Fin 128))

/-- The mean at a feature. -/
theorem meanOf_apply (s : Vec Ideal S16x256 .f32) (n : Vec Ideal S16x128 .f32) (f : Fin 256) :
    meanOf (F := Ideal) s n (ix1 f) = Ideal.div (tot s f) (num n) := by
  unfold meanOf
  show Ideal.div (rowSum s (ix1 f)) (broadcastInDim S256 ![] bcast_S_S256 (count n) (ix1 f)) = _
  rw [rowSum_apply, broadcastInDim_scalar_apply, count_apply]
  rfl

/-- The reciprocal standard deviation at a feature. -/
theorem invStd_apply (s q : Vec Ideal S16x256 .f32) (n : Vec Ideal S16x128 .f32) (f : Fin 256) :
    invStd (F := Ideal) s q n (ix1 f)
      = Ideal.rsqrt (max (Ideal.div (tot q f) (num n) - Ideal.div (tot s f) (num n) * Ideal.div (tot s f) (num n)) 0
          + Ideal.ofBits .f32 0x3727C5AC#32) := by
  unfold invStd
  show Ideal.rsqrt (max (Ideal.div (rowSum q (ix1 f)) (broadcastInDim S256 ![] bcast_S_S256 (count n) (ix1 f))
      - meanOf s n (ix1 f) * meanOf s n (ix1 f))
      (broadcastInDim S256 ![] bcast_S_S256 (constant (F := Ideal) S_ .f32 0x00000000#32) (ix1 f))
      + broadcastInDim S256 ![] bcast_S_S256 (constant (F := Ideal) S_ .f32 0x3727C5AC#32) (ix1 f)) = _
  rw [rowSum_apply, meanOf_apply, broadcastInDim_scalar_apply, broadcastInDim_scalar_apply, broadcastInDim_scalar_apply,
    count_apply, constant_apply, constant_apply, Ideal.ofBits_zero_f32]
  rfl

/-- The scale and the shift at a feature. -/
theorem scaleOf_apply (s q : Vec Ideal S16x256 .f32) (n : Vec Ideal S16x128 .f32) (g : Vec Ideal S256 .f32) (f : Fin 256) :
    scaleOf (F := Ideal) s q n g (ix1 f) = g (ix1 f) * invStd (F := Ideal) s q n (ix1 f) := rfl

theorem shiftOf_apply (s q : Vec Ideal S16x256 .f32) (n : Vec Ideal S16x128 .f32) (g b : Vec Ideal S256 .f32) (f : Fin 256) :
    shiftOf (F := Ideal) s q n g b (ix1 f)
      = b (ix1 f) - meanOf (F := Ideal) s n (ix1 f) * (g (ix1 f) * invStd (F := Ideal) s q n (ix1 f)) := rfl

end Cert.KernelIdeal.Glue

end
-- ==== Proof.StatsPieces.lean ====
/-
  The statistics region's body, case by case, as values.

  The body adds a tile's partial statistics into three small blocks carried from point to point: per feature the
  tile's sum of `x·w` and of `(x·w)·x`, and the tile's count `∑ w` (`w` the weight of a mask word). At the first
  tile of a core's run of tiles it first stores zeros into the three blocks, and what it then reads back is that
  zero block; at every later tile it reads what the tile before left. So each block after the body is ONE update
  applied to a start value: the zero block in the first case, the running contents in the other. The three
  updates are the body's own arithmetic, kept here under their names.
-/
import proofs.«419955_j52931176956564_4_alg».proof.Proof.Gen.KernelIdeal.Frame
import Idealize.ShloMosaic.Lib.Pipeline.Value
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first tile of a run: the update applied to the zero block -/

theorem out_A_2 (c : Dev nD) (i : grid0.Coords) (a2 : Memref sig .tc .vmem S16x1024x256 .f32) (h2 : a2.IsWhole) (a3 : Memref sig .tc .vmem S16x1024 .i32) (h3 : a3.IsWhole) (a4 : Memref sig .tc .vmem S8x256 .f32) (h4 : a4.IsWhole) (a5 : Memref sig .tc .vmem S8x256 .f32) (h5 : a5.IsWhole) (a6 : Memref sig .tc .vmem S8x128 .f32) (h6 : a6.IsWhole) (hc : cond0_0 i) (x0 : Vec F S16x1024x256 .f32) (x1 : Vec F S16x1024 .i32) :
    out0_A_2 c i a2 h2 a3 h3 a4 h4 a5 h5 a6 h6 hc x0 x1 = k0_pay7 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S8x256) hz2, View.readCov_unit_zero (S := S8x256) _ hz2]
  simp only [View.readAt_eq_ld, h2.read_unread, h3.read_unread, h4.read_unread, h5.read_unread, h6.read_unread,
    View.ld_unit_zero (S := S16x1024x256) hz3, View.ld_unit_zero (S := S16x1024) hz2,
    View.ld_unit_zero (S := S8x256) hz2, View.ld_unit_zero (S := S8x128) hz2]

theorem out_A_3 (c : Dev nD) (i : grid0.Coords) (a2 : Memref sig .tc .vmem S16x1024x256 .f32) (h2 : a2.IsWhole) (a3 : Memref sig .tc .vmem S16x1024 .i32) (h3 : a3.IsWhole) (a4 : Memref sig .tc .vmem S8x256 .f32) (h4 : a4.IsWhole) (a5 : Memref sig .tc .vmem S8x256 .f32) (h5 : a5.IsWhole) (a6 : Memref sig .tc .vmem S8x128 .f32) (h6 : a6.IsWhole) (hc : cond0_0 i) (x0 : Vec F S16x1024x256 .f32) (x1 : Vec F S16x1024 .i32) :
    out0_A_3 c i a2 h2 a3 h3 a4 h4 a5 h5 a6 h6 hc x0 x1 = k0_pay8 x0 x1 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S8x256) hz2, View.readCov_unit_zero (S := S8x256) _ hz2]
  simp only [View.readAt_eq_ld, h2.read_unread, h3.read_unread, h4.read_unread, h5.read_unread, h6.read_unread,
    View.ld_unit_zero (S := S16x1024x256) hz3, View.ld_unit_zero (S := S16x1024) hz2,
    View.ld_unit_zero (S := S8x256) hz2, View.ld_unit_zero (S := S8x128) hz2]

theorem out_A_4 (c : Dev nD) (i : grid0.Coords) (a2 : Memref sig .tc .vmem S16x1024x256 .f32) (h2 : a2.IsWhole) (a3 : Memref sig .tc .vmem S16x1024 .i32) (h3 : a3.IsWhole) (a4 : Memref sig .tc .vmem S8x256 .f32) (h4 : a4.IsWhole) (a5 : Memref sig .tc .vmem S8x256 .f32) (h5 : a5.IsWhole) (a6 : Memref sig .tc .vmem S8x128 .f32) (h6 : a6.IsWhole) (hc : cond0_0 i) (x0 : Vec F S16x1024x256 .f32) (x1 : Vec F S16x1024 .i32) :
    out0_A_4 c i a2 h2 a3 h3 a4 h4 a5 h5 a6 h6 hc x0 x1 = k0_pay1 (k0_pay9 (k0_pay4 (F := F))) (k0_pay10 x1) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, h4.read_unread, h5.read_unread, h6.read_unread,
    View.ld_unit_zero (S := S16x1024x256) hz3, View.ld_unit_zero (S := S16x1024) hz2,
    View.ld_unit_zero (S := S8x256) hz2, View.ld_unit_zero (S := S8x128) hz2]

/-! ## A later tile: the update applied to what the tile before left -/

theorem out_B_2 (c : Dev nD) (i : grid0.Coords) (a2 : Memref sig .tc .vmem S16x1024x256 .f32) (h2 : a2.IsWhole) (a3 : Memref sig .tc .vmem S16x1024 .i32) (h3 : a3.IsWhole) (a4 : Memref sig .tc .vmem S8x256 .f32) (h4 : a4.IsWhole) (a5 : Memref sig .tc .vmem S8x256 .f32) (h5 : a5.IsWhole) (a6 : Memref sig .tc .vmem S8x128 .f32) (h6 : a6.IsWhole) (hc : ¬cond0_0 i) (x0 : Vec F S16x1024x256 .f32) (x1 : Vec F S16x1024 .i32) (xo2 : Vec F S8x256 .f32) (xo3 : Vec F S8x256 .f32) (xo4 : Vec F S8x128 .f32) :
    out0_B_2 c i a2 h2 a3 h3 a4 h4 a5 h5 a6 h6 hc x0 x1 xo2 xo3 xo4 = k0_pay7 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S16x1024x256) hz3, View.ld_unit_zero (S := S16x1024) hz2,
    View.ld_unit_zero (S := S8x256) hz2, View.ld_unit_zero (S := S8x128) hz2]

theorem out_B_3 (c : Dev nD) (i : grid0.Coords) (a2 : Memref sig .tc .vmem S16x1024x256 .f32) (h2 : a2.IsWhole) (a3 : Memref sig .tc .vmem S16x1024 .i32) (h3 : a3.IsWhole) (a4 : Memref sig .tc .vmem S8x256 .f32) (h4 : a4.IsWhole) (a5 : Memref sig .tc .vmem S8x256 .f32) (h5 : a5.IsWhole) (a6 : Memref sig .tc .vmem S8x128 .f32) (h6 : a6.IsWhole) (hc : ¬cond0_0 i) (x0 : Vec F S16x1024x256 .f32) (x1 : Vec F S16x1024 .i32) (xo2 : Vec F S8x256 .f32) (xo3 : Vec F S8x256 .f32) (xo4 : Vec F S8x128 .f32) :
    out0_B_3 c i a2 h2 a3 h3 a4 h4 a5 h5 a6 h6 hc x0 x1 xo2 xo3 xo4 = k0_pay8 x0 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S16x1024x256) hz3, View.ld_unit_zero (S := S16x1024) hz2,
    View.ld_unit_zero (S := S8x256) hz2, View.ld_unit_zero (S := S8x128) hz2]

theorem out_B_4 (c : Dev nD) (i : grid0.Coords) (a2 : Memref sig .tc .vmem S16x1024x256 .f32) (h2 : a2.IsWhole) (a3 : Memref sig .tc .vmem S16x1024 .i32) (h3 : a3.IsWhole) (a4 : Memref sig .tc .vmem S8x256 .f32) (h4 : a4.IsWhole) (a5 : Memref sig .tc .vmem S8x256 .f32) (h5 : a5.IsWhole) (a6 : Memref sig .tc .vmem S8x128 .f32) (h6 : a6.IsWhole) (hc : ¬cond0_0 i) (x0 : Vec F S16x1024x256 .f32) (x1 : Vec F S16x1024 .i32) (xo2 : Vec F S8x256 .f32) (xo3 : Vec F S8x256 .f32) (xo4 : Vec F S8x128 .f32) :
    out0_B_4 c i a2 h2 a3 h3 a4 h4 a5 h5 a6 h6 hc x0 x1 xo2 xo3 xo4 = k0_pay1 (k0_pay9 xo4) (k0_pay10 x1) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S16x1024x256) hz3, View.ld_unit_zero (S := S16x1024) hz2,
    View.ld_unit_zero (S := S8x256) hz2, View.ld_unit_zero (S := S8x128) hz2]

end Cert.KernelIdeal.Stats

end
-- ==== Proof.StatsUpdates.lean ====
/-
  The statistics region's three updates, read at an entry.

  With `w(p, q)` the weight of the tile's mask word at (row p, step q) — 1 where the word is positive, else 0 — one
  tile adds, to every row of the carried blocks,
    * per feature `f`:  `∑ p, ∑ q, x(p, q, f) · w(p, q)`        (the sum block),
    * per feature `f`:  `∑ p, ∑ q, (x(p, q, f) · w(p, q)) · x(p, q, f)`  (the sum-of-squares block),
    * the tile's count:  `∑ p, ∑ q, w(p, q)`                  (every entry of the count block),
  over the tile's 16 rows and 1024 steps. The reductions over the tile's two leading axes are the double sums
  over their coordinates; the count's, taken over a reshaped copy with unit axes, is the same double sum.
-/
import proofs.«419955_j52931176956564_4_alg».proof.Proof.Gen.KernelIdeal.Skeleton
import proofs.«419955_j52931176956564_4_alg».proof.Proof.MaskWord
import proofs.«419955_j52931176956564_4_alg».proof.Proof.LibLayoutRank3
import proofs.«419955_j52931176956564_4_alg».proof.Proof.LibSumLeadingAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stats

open Cert.KernelIdeal Cert.KernelIdeal.Gen MaskWord LayoutRank3 SumLeadingAxes
open Idealize.ShloMosaic Idealize.ShloMosaic.ValueIdx

/-- The weight at a tile entry, as the body computes it. -/
theorem pay5_apply (x1 : Vec Ideal S16x1024 .i32) (p : Fin 16) (q : Fin 1024) (u : Fin 1) :
    k0_pay5 (F := Ideal) x1 (ix3 p q u) = ((msk (x1 (ix2 p q)) : ℝ) : EReal) := by
  unfold k0_pay5
  simp only [shapeCast_ab_ab1_apply, sitofp_apply, extui_apply, Idealize.ShloMosaic.cmpi, broadcast_apply, kernel_weight]

/-- The weighted value at a tile entry. -/
theorem pay6_apply (x0 : Vec Ideal S16x1024x256 .f32) (x1 : Vec Ideal S16x1024 .i32) (p : Fin 16) (q : Fin 1024) (f : Fin 256) :
    k0_pay6 (F := Ideal) x0 x1 (ix3 p q f) = x0 (ix3 p q f) * ((msk (x1 (ix2 p q)) : ℝ) : EReal) := by
  unfold k0_pay6
  simp only [mulf_apply, broadcastTo_ab1_abc_apply, pay5_apply]

/-- A reduction over a tile's two leading axes is the double sum over their coordinates. -/
theorem tile_reduce (src : FVec Ideal S16x1024x256 .f32) (h : S16x1024x256.Reduces [0, 1] S256) (hφ : FKind.Formats .f32)
    (hacc : (0x00000000#32 : BitVec 32) = FKind.add.neutral .f32 hφ) (f : Fin 256) :
    multiReduction .add [0, 1] S256 src 0x00000000#32 h hφ hacc (ix1 f) = ∑ p : Fin 16, ∑ q : Fin 1024, src (ix3 p q f) :=
  sum_filter_drop01 h.drop (fun i => h.drop_apply_val_of_eq i 0 2) src (ix1 f)

/-- The sum block after a tile: what it held plus the tile's weighted sum, in every row. -/
theorem pay7_apply (x0 : Vec Ideal S16x1024x256 .f32) (x1 : Vec Ideal S16x1024 .i32) (acc : Vec Ideal S8x256 .f32)
    (r : Fin 8) (f : Fin 256) :
    k0_pay7 (F := Ideal) x0 x1 acc (ix2 r f)
      = acc (ix2 r f) + ∑ p : Fin 16, ∑ q : Fin 1024, x0 (ix3 p q f) * ((msk (x1 (ix2 p q)) : ℝ) : EReal) := by
  unfold k0_pay7
  simp only [addf_apply, shapeCast_self, broadcastTo_1b_ab_apply, shapeCast_a_1a_apply]
  refine congrArg (acc (ix2 r f) + ·) ?_
  refine (tile_reduce (k0_pay6 x0 x1) _ _ _ f).trans ?_
  simp only [pay6_apply]

/-- The sum-of-squares block after a tile. -/
theorem pay8_apply (x0 : Vec Ideal S16x1024x256 .f32) (x1 : Vec Ideal S16x1024 .i32) (acc : Vec Ideal S8x256 .f32)
    (r : Fin 8) (f : Fin 256) :
    k0_pay8 (F := Ideal) x0 x1 acc (ix2 r f)
      = acc (ix2 r f) + ∑ p : Fin 16, ∑ q : Fin 1024, (x0 (ix3 p q f) * ((msk (x1 (ix2 p q)) : ℝ) : EReal)) * x0 (ix3 p q f) := by
  unfold k0_pay8
  simp only [addf_apply, shapeCast_self, broadcastTo_1b_ab_apply, shapeCast_a_1a_apply]
  refine congrArg (acc (ix2 r f) + ·) ?_
  refine (tile_reduce (mulf (k0_pay6 x0 x1) x0) _ _ _ f).trans ?_
  simp only [mulf_apply, pay6_apply]

/-- A one-element vector seen with four unit axes holds that element. -/
theorem shapeCast_1_1111_apply {α : Type} (v : S1.Idx → α) (h : S1.ShapeCasts S1x1x1x1) (j : S1x1x1x1.Idx) :
    shapeCast S1x1x1x1 v h j = v (ix1 (0 : Fin 1)) := by
  refine shapeCast_apply v h j (ix1 (0 : Fin 1)) ?_
  rw [Shape.rowMajor_val_one, Shape.rowMajor_val_four]
  have h0 := (j 0).isLt; have h1 := (j 1).isLt; have h2 := (j 2).isLt; have h3 := (j 3).isLt
  show (0 : ℕ) = (((j 0).val * 1 + (j 1).val) * 1 + (j 2).val) * 1 + (j 3).val
  have e0 : (j 0).val < 1 := h0
  have e1 : (j 1).val < 1 := h1
  have e2 : (j 2).val < 1 := h2
  have e3 : (j 3).val < 1 := h3
  omega

/-- The tile's count: the double sum of the weights. -/
theorem pay10_apply (x1 : Vec Ideal S16x1024 .i32) (j : S1x1.Idx) :
    k0_pay10 (F := Ideal) x1 j = ∑ p : Fin 16, ∑ q : Fin 1024, ((msk (x1 (ix2 p q)) : ℝ) : EReal) := by
  unfold k0_pay10
  simp only [broadcast_apply]
  unfold extractAt
  rw [shapeCast_1_1111_apply]
  refine (Ideal.multiReduction_add_total _ _ _ (fun b => match b with | ⟨0, _⟩ => rfl) _ _ _).trans ?_
  rw [sum_idx4_units]
  simp only [shapeCast_abc_1abc_apply, pay5_apply]

/-- A one-entry block spread over a block of any extents holds that entry everywhere. -/
theorem broadcastTo_11_ab_apply {α : Type} (v : S1x1.Idx → α) (h : S1x1.Broadcasts S8x128) (r : Fin 8) (l : Fin 128) :
    broadcastTo S8x128 v h (ix2 r l) = v (ix2 (0 : Fin 1) (0 : Fin 1)) := by
  refine broadcastTo_apply v h (ix2 r l) (ix2 (0 : Fin 1) (0 : Fin 1)) fun ax => ?_
  match ax with
  | ⟨0, _⟩ => rfl
  | ⟨1, _⟩ => rfl

/-- The count block after a tile: what it held plus the tile's count, at every entry. -/
theorem pay1_apply (x1 : Vec Ideal S16x1024 .i32) (acc : Vec Ideal S8x128 .f32) (r : Fin 8) (l : Fin 128) :
    k0_pay1 (F := Ideal) (k0_pay9 acc) (k0_pay10 x1) (ix2 r l)
      = acc (ix2 r l) + ∑ p : Fin 16, ∑ q : Fin 1024, ((msk (x1 (ix2 p q)) : ℝ) : EReal) := by
  unfold k0_pay1 k0_pay9
  simp only [addf_apply, shapeCast_self, broadcastTo_11_ab_apply, pay10_apply]

/-- The zero blocks the first tile of a run starts from. -/
theorem pay2_apply (j : S8x256.Idx) : k0_pay2 (F := Ideal) j = 0 := by
  unfold k0_pay2; simp only [broadcast_apply]; exact Ideal.ofBits_zero_f32
theorem pay3_apply (j : S8x256.Idx) : k0_pay3 (F := Ideal) j = 0 := by
  unfold k0_pay3; simp only [broadcast_apply]; exact Ideal.ofBits_zero_f32
theorem pay4_apply (j : S8x128.Idx) : k0_pay4 (F := Ideal) j = 0 := by
  unfold k0_pay4; simp only [broadcast_apply]; exact Ideal.ofBits_zero_f32

end Cert.KernelIdeal.Stats

end
-- ==== Proof.LibRunSum.lean ====
/-
  A running sum that restarts every fourth step.

  Let `a : ℕ → M` be updated step by step by contributions `τ`: at a step `n` with `n % P = 0` it restarts,
  `a n = τ n`; at any other step it accumulates, `a n = a (n − 1) + τ n`. Then `a n` is the sum of the contributions
  since the last restart: `a n = ∑ i ∈ range (n % P + 1), τ (n − n % P + i)` (`run_sum`, for any period `P > 0`); in
  particular at the last step before a restart, `n % P = P − 1`, it is the sum of the whole run of `P` contributions
  `τ (n + 1 − P), …, τ n`.
-/
import Mathlib.Algebra.BigOperators.Group.Finset.Basic
import Mathlib.Algebra.BigOperators.Intervals
import Mathlib.Tactic.Ring

namespace RunSum

variable {M : Type} [AddCommMonoid M]

/-- The running sum since the last restart. -/
theorem run_sum (P : ℕ) (hP : 0 < P) (a τ : ℕ → M) (N : ℕ)
    (hA : ∀ n, n < N → n % P = 0 → a n = τ n)
    (hB : ∀ n, n < N → ¬n % P = 0 → a n = a (n - 1) + τ n) :
    ∀ n, n < N → a n = ∑ i ∈ Finset.range (n % P + 1), τ (n - n % P + i) := by
  intro n
  induction n with
  | zero =>
    intro h
    rw [hA 0 h (Nat.zero_mod P)]
    simp
  | succ k ih =>
    intro h
    by_cases h0 : (k + 1) % P = 0
    · rw [hA (k + 1) h h0, h0]
      simp
    · rw [hB (k + 1) h h0, Nat.add_sub_cancel, ih (Nat.lt_of_succ_lt h)]
      have hmod : (k % P + 1) % P = (k + 1) % P := Nat.mod_add_mod k P 1
      have h1 : k % P < P := Nat.mod_lt k hP
      have hle : k % P ≤ k := Nat.mod_le k P
      have h3 : k % P + 1 < P := by
        rcases Nat.lt_or_ge (k % P + 1) P with hlt | hge
        · exact hlt
        · exfalso
          apply h0
          have e : k % P + 1 = P := by omega
          rw [← hmod, e, Nat.mod_self]
      have hk : (k + 1) % P = k % P + 1 := by rw [← hmod, Nat.mod_eq_of_lt h3]
      have hb : k + 1 - (k % P + 1) = k - k % P := by omega
      have hlast : k - k % P + (k % P + 1) = k + 1 := by omega
      rw [hk, hb, Finset.sum_range_succ (fun i => τ (k - k % P + i)) (k % P + 1), hlast]

end RunSum
-- ==== Proof.StatsRun.lean ====
/-
  The statistics region: what the three carried blocks hold after each point.

  The eight grid points are two runs of four tiles, one run per core: points 0–3 and 4–7. At the first tile of a run
  the body starts the three blocks from zero, at every later tile from what the tile before left, and adds the
  tile's contribution; so after point `n` each block holds, in every row, the sum of the contributions of the tiles
  `n − n % 4, …, n` of its run (`runS`, `runQ`, `runN`: the general restart-and-accumulate recurrence). Tile `t`'s
  contributions are the double sums over its 16 rows and 1024 steps of `x·w`, of `(x·w)·x` (per feature) and of `w`.
-/
import proofs.«419955_j52931176956564_4_alg».proof.Proof.StatsPieces
import proofs.«419955_j52931176956564_4_alg».proof.Proof.StatsUpdates
import proofs.«419955_j52931176956564_4_alg».proof.Proof.LibRunSum

set_option maxRecDepth 16384

noncomputable section

namespace Cert.KernelIdeal.Stats

open Cert.KernelIdeal Cert.KernelIdeal.Gen MaskWord
open Idealize.ShloMosaic Idealize.ShloMosaic.TcCoe Idealize.ShloMosaic.ValueIdx Idealize.SL.Sem

variable (V : (c : Dev nD) → (b : Ref sig .tc) → Buf (Elt Ideal) ((c : Thread nD τ).loc b))

/-- Tile `t`'s blocks of values and of mask words, as the region reads them. -/
abbrev xblk (c : Dev nD) (t : Fin cfg0.N) : Vec Ideal S16x1024x256 .f32 := iblk0 V c 0 t
abbrev mblk (c : Dev nD) (t : Fin cfg0.N) : Vec Ideal S16x1024 .i32 := iblk0 V c 1 t

/-! ## The block of the weighted values -/

/-- Tile `t`'s contribution: the double sum of the weighted values over the tile's rows and steps. -/
def tileS (c : Dev nD) (f : Fin 256) (t : Fin cfg0.N) : EReal :=
  ∑ p : Fin 16, ∑ q : Fin 1024, xblk V c t (ix3 p q f) * ((msk (mblk V c t (ix2 p q)) : ℝ) : EReal)

/-- At the first tile of a run the block holds that tile's contribution. -/
theorem firstS (c : Dev nD) (r : Fin 8) (f : Fin 256) (t : Fin cfg0.N) (h0 : t.val % 4 = 0) :
    (outsAt0 V c t.val t.isLt).1 (ix2 r f) = tileS V c f t := by
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) (ix2 r f)).trans ?_
  refine (pay7_apply (xblk V c t) (mblk V c t) (k0_pay2 (F := Ideal)) r f).trans ?_
  rw [pay2_apply, zero_add]
  rfl

/-- At a later tile it holds what the tile before left plus this tile's contribution. -/
theorem nextS (c : Dev nD) (r : Fin 8) (f : Fin 256) (t : Fin cfg0.N) (h0 : ¬t.val % 4 = 0) :
    (outsAt0 V c t.val t.isLt).1 (ix2 r f)
      = (outsAt0 V c (t.val - 1) (Nat.lt_of_le_of_lt (Nat.sub_le _ _) t.isLt)).1 (ix2 r f) + tileS V c f t := by
  rw [outsAt0_B V c t h0]
  dsimp only
  refine (congrFun (out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 r f)).trans ?_
  exact pay7_apply (xblk V c t) (mblk V c t) (outsAt0 V c (t.val - 1) (Nat.lt_of_le_of_lt (Nat.sub_le _ _) t.isLt)).1 r f

/-- The block's entry after point `n`, and tile `n`'s contribution, as total functions of `n`. -/
def atS (c : Dev nD) (r : Fin 8) (f : Fin 256) (n : ℕ) : EReal :=
  if h : n < cfg0.N then (outsAt0 V c n h).1 (ix2 r f) else 0
def contribS (c : Dev nD) (f : Fin 256) (n : ℕ) : EReal :=
  if h : n < cfg0.N then tileS V c f ⟨n, h⟩ else 0

/-- So after point `n` the block holds the contributions of the tiles since the run began. -/
theorem runS (c : Dev nD) (r : Fin 8) (f : Fin 256) :
    ∀ n, n < cfg0.N → atS V c r f n = ∑ i ∈ Finset.range (n % 4 + 1), contribS V c f (n - n % 4 + i) :=
  RunSum.run_sum 4 (by norm_num) (atS V c r f) (contribS V c f) cfg0.N
    (fun n h h0 => by
      unfold atS contribS
      rw [dif_pos h, dif_pos h]
      exact firstS V c r f ⟨n, h⟩ h0)
    (fun n h h0 => by
      have h' : n - 1 < cfg0.N := Nat.lt_of_le_of_lt (Nat.sub_le _ _) h
      unfold atS contribS
      rw [dif_pos h, dif_pos h', dif_pos h]
      exact nextS V c r f ⟨n, h⟩ h0)

/-! ## The block of the weighted squares -/

/-- Tile `t`'s contribution: the double sum of the weighted squares over the tile's rows and steps. -/
def tileQ (c : Dev nD) (f : Fin 256) (t : Fin cfg0.N) : EReal :=
  ∑ p : Fin 16, ∑ q : Fin 1024, (xblk V c t (ix3 p q f) * ((msk (mblk V c t (ix2 p q)) : ℝ) : EReal)) * xblk V c t (ix3 p q f)

/-- At the first tile of a run the block holds that tile's contribution. -/
theorem firstQ (c : Dev nD) (r : Fin 8) (f : Fin 256) (t : Fin cfg0.N) (h0 : t.val % 4 = 0) :
    (outsAt0 V c t.val t.isLt).2.1 (ix2 r f) = tileQ V c f t := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) (ix2 r f)).trans ?_
  refine (pay8_apply (xblk V c t) (mblk V c t) (k0_pay3 (F := Ideal)) r f).trans ?_
  rw [pay3_apply, zero_add]
  rfl

/-- At a later tile it holds what the tile before left plus this tile's contribution. -/
theorem nextQ (c : Dev nD) (r : Fin 8) (f : Fin 256) (t : Fin cfg0.N) (h0 : ¬t.val % 4 = 0) :
    (outsAt0 V c t.val t.isLt).2.1 (ix2 r f)
      = (outsAt0 V c (t.val - 1) (Nat.lt_of_le_of_lt (Nat.sub_le _ _) t.isLt)).2.1 (ix2 r f) + tileQ V c f t := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 r f)).trans ?_
  exact pay8_apply (xblk V c t) (mblk V c t) (outsAt0 V c (t.val - 1) (Nat.lt_of_le_of_lt (Nat.sub_le _ _) t.isLt)).2.1 r f

/-- The block's entry after point `n`, and tile `n`'s contribution, as total functions of `n`. -/
def atQ (c : Dev nD) (r : Fin 8) (f : Fin 256) (n : ℕ) : EReal :=
  if h : n < cfg0.N then (outsAt0 V c n h).2.1 (ix2 r f) else 0
def contribQ (c : Dev nD) (f : Fin 256) (n : ℕ) : EReal :=
  if h : n < cfg0.N then tileQ V c f ⟨n, h⟩ else 0

/-- So after point `n` the block holds the contributions of the tiles since the run began. -/
theorem runQ (c : Dev nD) (r : Fin 8) (f : Fin 256) :
    ∀ n, n < cfg0.N → atQ V c r f n = ∑ i ∈ Finset.range (n % 4 + 1), contribQ V c f (n - n % 4 + i) :=
  RunSum.run_sum 4 (by norm_num) (atQ V c r f) (contribQ V c f) cfg0.N
    (fun n h h0 => by
      unfold atQ contribQ
      rw [dif_pos h, dif_pos h]
      exact firstQ V c r f ⟨n, h⟩ h0)
    (fun n h h0 => by
      have h' : n - 1 < cfg0.N := Nat.lt_of_le_of_lt (Nat.sub_le _ _) h
      unfold atQ contribQ
      rw [dif_pos h, dif_pos h', dif_pos h]
      exact nextQ V c r f ⟨n, h⟩ h0)

/-! ## The block of the weights -/

/-- Tile `t`'s contribution: the double sum of the weights over the tile's rows and steps. -/
def tileN (c : Dev nD) (t : Fin cfg0.N) : EReal :=
  ∑ p : Fin 16, ∑ q : Fin 1024, ((msk (mblk V c t (ix2 p q)) : ℝ) : EReal)

/-- At the first tile of a run the block holds that tile's contribution. -/
theorem firstN (c : Dev nD) (r : Fin 8) (f : Fin 128) (t : Fin cfg0.N) (h0 : t.val % 4 = 0) :
    (outsAt0 V c t.val t.isLt).2.2 (ix2 r f) = tileN V c t := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) (ix2 r f)).trans ?_
  refine (pay1_apply (mblk V c t) (k0_pay4 (F := Ideal)) r f).trans ?_
  rw [pay4_apply, zero_add]
  rfl

/-- At a later tile it holds what the tile before left plus this tile's contribution. -/
theorem nextN (c : Dev nD) (r : Fin 8) (f : Fin 128) (t : Fin cfg0.N) (h0 : ¬t.val % 4 = 0) :
    (outsAt0 V c t.val t.isLt).2.2 (ix2 r f)
      = (outsAt0 V c (t.val - 1) (Nat.lt_of_le_of_lt (Nat.sub_le _ _) t.isLt)).2.2 (ix2 r f) + tileN V c t := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix2 r f)).trans ?_
  exact pay1_apply (mblk V c t) (outsAt0 V c (t.val - 1) (Nat.lt_of_le_of_lt (Nat.sub_le _ _) t.isLt)).2.2 r f

/-- The block's entry after point `n`, and tile `n`'s contribution, as total functions of `n`. -/
def atN (c : Dev nD) (r : Fin 8) (f : Fin 128) (n : ℕ) : EReal :=
  if h : n < cfg0.N then (outsAt0 V c n h).2.2 (ix2 r f) else 0
def contribN (c : Dev nD) (n : ℕ) : EReal :=
  if h : n < cfg0.N then tileN V c ⟨n, h⟩ else 0

/-- So after point `n` the block holds the contributions of the tiles since the run began. -/
theorem runN (c : Dev nD) (r : Fin 8) (f : Fin 128) :
    ∀ n, n < cfg0.N → atN V c r f n = ∑ i ∈ Finset.range (n % 4 + 1), contribN V c (n - n % 4 + i) :=
  RunSum.run_sum 4 (by norm_num) (atN V c r f) (contribN V c ) cfg0.N
    (fun n h h0 => by
      unfold atN contribN
      rw [dif_pos h, dif_pos h]
      exact firstN V c r f ⟨n, h⟩ h0)
    (fun n h h0 => by
      have h' : n - 1 < cfg0.N := Nat.lt_of_le_of_lt (Nat.sub_le _ _) h
      unfold atN contribN
      rw [dif_pos h, dif_pos h', dif_pos h]
      exact nextN V c r f ⟨n, h⟩ h0)

end Cert.KernelIdeal.Stats

end
-- ==== Proof.StatsFinal.lean ====
/-
  The statistics region: the three arrays it leaves.

  A block is written back only after the last tile of its run (the points with `t % 4 = 3`), when it holds the
  total of the run's four tiles; run `ρ` (core ρ) writes rows `8ρ … 8ρ + 7`. So each array holds, at (row, column),
  the four-tile total of run `row / 8` — the eight rows of a core identical — and every entry is written:
  `finalS`, `finalQ`, `finalN`.
-/
import proofs.«419955_j52931176956564_4_alg».proof.Proof.StatsRun
import Idealize.ShloMosaic.Lib.Pipeline.Value

set_option maxRecDepth 16384

noncomputable section

namespace Cert.KernelIdeal.Stats

open Cert.KernelIdeal Cert.KernelIdeal.Gen MaskWord
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The array of block S (window 2) -/

/-- What the array ends holding: at (row, column) the total of the four tiles of run `row / 8`. -/
def GS (c : Dev nD) : S16x256.Idx → EReal := fun i =>
  ∑ k ∈ Finset.range 4, contribS V c (i 1) (4 * ((i 0).val / 8) + k)

/-- The window's index map over the eight points: block `t / 4`, the one column block. -/
theorem idxS : ∀ t : Fin cfg0.N, win0_2.index t (0 : Fin 2) = t.val / 4 ∧ win0_2.index t (1 : Fin 2) = 0 :=
  (by decide +kernel : ∀ t : Fin grid0.N, _)

/-- What a flushing point writes back is its block of `GS`. -/
theorem flushedS (c : Dev nD) (t : Fin cfg0.N) (hf : (cfg0.win 2).flush t = true) :
    (dat0 (F := Ideal) V c).flushed 2 t = ((cfg0.win 2).blk t).view.read (Elt Ideal) (GS V c) := by
  have h3 : t.val % 4 = 3 := (flush0_2 t).mp hf
  have hN : t.val < 8 := lt_of_lt_of_eq t.isLt N_0
  obtain ⟨e0, e1⟩ := idxS t
  show (cfg0.win 2).cut (grid0.coords t) ((dat0 (F := Ideal) V c).after 2 t) = _
  rw [after0_2]
  funext j
  obtain ⟨r, f, rfl⟩ : ∃ (r : Fin 8) (f : Fin 256), j = ix2 r f := ⟨j 0, j 1, eq_ix2 j⟩
  show (outsAt0 V c t.val t.isLt).1 (ix2 r f) = GS V c (((cfg0.win 2).blk t).view.emb (ix2 r f))
  have hrun := runS V c r f t.val t.isLt
  unfold atS at hrun
  rw [dif_pos t.isLt] at hrun
  rw [hrun, h3]
  unfold GS
  have hcol : (((cfg0.win 2).blk t).view.emb (ix2 r f)) 1 = f :=
    Fin.ext (by show win0_2.index t (1 : Fin 2) * 256 + 1 * f.val = f.val; omega)
  have hrow : ((((cfg0.win 2).blk t).view.emb (ix2 r f)) 0).val = win0_2.index t (0 : Fin 2) * 8 + 1 * r.val := rfl
  rw [hcol, hrow]
  refine Finset.sum_congr rfl fun k _ => congrArg (contribS V c f) ?_
  have := r.isLt
  omega

/-- An index of the array is in point `t`'s block iff each coordinate is in the block's range on its axis. -/
theorem mem_blkS (t : Fin cfg0.N) (i : S16x256.Idx) :
    i ∈ ((cfg0.win 2).blk t).view.set ↔ ∀ a : Fin 2, win0_2.index t a * S8x256.size a ≤ (i a).val
      ∧ (i a).val < win0_2.index t a * S8x256.size a + S8x256.size a := by
  show i ∈ ((View.whole main_v0_0).slice (win0_2.rect t)).set ↔ _
  rw [View.set_slice_whole, Rect.mem_set_unit]
  exact Iff.rfl

/-- Every entry is written back: row `i₀` belongs to run `i₀ / 8`, whose last tile flushes. -/
theorem coverS (i : S16x256.Idx) :
    ∃ t : Fin cfg0.N, (cfg0.win 2).flush t = true ∧ i ∈ ((cfg0.win 2).blk t).view.set := by
  have hN : grid0.N = 8 := N_0
  have h0 : (i 0).val < 16 := (i 0).isLt
  have h1 : (i 1).val < 256 := (i 1).isLt
  have hlt : 4 * ((i 0).val / 8) + 3 < cfg0.N := by show _ < grid0.N; rw [hN]; omega
  refine ⟨⟨4 * ((i 0).val / 8) + 3, hlt⟩, (flush0_2 _).mpr (by show (4 * ((i 0).val / 8) + 3) % 4 = 3; omega), ?_⟩
  obtain ⟨e0, e1⟩ := idxS ⟨4 * ((i 0).val / 8) + 3, hlt⟩
  have e0' : win0_2.index ⟨4 * ((i 0).val / 8) + 3, hlt⟩ (0 : Fin 2) = (4 * ((i 0).val / 8) + 3) / 4 := e0
  rw [mem_blkS]
  intro a
  match a with
  | ⟨0, _⟩ =>
    show win0_2.index ⟨4 * ((i 0).val / 8) + 3, hlt⟩ (0 : Fin 2) * 8 ≤ (i 0).val
      ∧ (i 0).val < win0_2.index ⟨4 * ((i 0).val / 8) + 3, hlt⟩ (0 : Fin 2) * 8 + 8
    omega
  | ⟨1, _⟩ =>
    show win0_2.index ⟨4 * ((i 0).val / 8) + 3, hlt⟩ (1 : Fin 2) * 256 ≤ (i 1).val
      ∧ (i 1).val < win0_2.index ⟨4 * ((i 0).val / 8) + 3, hlt⟩ (1 : Fin 2) * 256 + 256
    omega

/-- The array after the region. -/
theorem finalS (c : Dev nD) : (dat0 (F := Ideal) V c).arrAt 2 cfg0.N = GS V c :=
  (dat0 (F := Ideal) V c).arrAt_eq_of_cover 2 (GS V c) (flushedS V c) coverS

/-! ## The array of block Q (window 3) -/

/-- What the array ends holding: at (row, column) the total of the four tiles of run `row / 8`. -/
def GQ (c : Dev nD) : S16x256.Idx → EReal := fun i =>
  ∑ k ∈ Finset.range 4, contribQ V c (i 1) (4 * ((i 0).val / 8) + k)

/-- The window's index map over the eight points: block `t / 4`, the one column block. -/
theorem idxQ : ∀ t : Fin cfg0.N, win0_3.index t (0 : Fin 2) = t.val / 4 ∧ win0_3.index t (1 : Fin 2) = 0 :=
  (by decide +kernel : ∀ t : Fin grid0.N, _)

/-- What a flushing point writes back is its block of `GQ`. -/
theorem flushedQ (c : Dev nD) (t : Fin cfg0.N) (hf : (cfg0.win 3).flush t = true) :
    (dat0 (F := Ideal) V c).flushed 3 t = ((cfg0.win 3).blk t).view.read (Elt Ideal) (GQ V c) := by
  have h3 : t.val % 4 = 3 := (flush0_3 t).mp hf
  have hN : t.val < 8 := lt_of_lt_of_eq t.isLt N_0
  obtain ⟨e0, e1⟩ := idxQ t
  show (cfg0.win 3).cut (grid0.coords t) ((dat0 (F := Ideal) V c).after 3 t) = _
  rw [after0_3]
  funext j
  obtain ⟨r, f, rfl⟩ : ∃ (r : Fin 8) (f : Fin 256), j = ix2 r f := ⟨j 0, j 1, eq_ix2 j⟩
  show (outsAt0 V c t.val t.isLt).2.1 (ix2 r f) = GQ V c (((cfg0.win 3).blk t).view.emb (ix2 r f))
  have hrun := runQ V c r f t.val t.isLt
  unfold atQ at hrun
  rw [dif_pos t.isLt] at hrun
  rw [hrun, h3]
  unfold GQ
  have hcol : (((cfg0.win 3).blk t).view.emb (ix2 r f)) 1 = f :=
    Fin.ext (by show win0_3.index t (1 : Fin 2) * 256 + 1 * f.val = f.val; omega)
  have hrow : ((((cfg0.win 3).blk t).view.emb (ix2 r f)) 0).val = win0_3.index t (0 : Fin 2) * 8 + 1 * r.val := rfl
  rw [hcol, hrow]
  refine Finset.sum_congr rfl fun k _ => congrArg (contribQ V c f) ?_
  have := r.isLt
  omega

/-- An index of the array is in point `t`'s block iff each coordinate is in the block's range on its axis. -/
theorem mem_blkQ (t : Fin cfg0.N) (i : S16x256.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v0_1).slice (win0_3.rect t)).set ↔ _
  rw [View.set_slice_whole, Rect.mem_set_unit]
  exact Iff.rfl

/-- Every entry is written back: row `i₀` belongs to run `i₀ / 8`, whose last tile flushes. -/
theorem coverQ (i : S16x256.Idx) :
    ∃ t : Fin cfg0.N, (cfg0.win 3).flush t = true ∧ i ∈ ((cfg0.win 3).blk t).view.set := by
  have hN : grid0.N = 8 := N_0
  have h0 : (i 0).val < 16 := (i 0).isLt
  have h1 : (i 1).val < 256 := (i 1).isLt
  have hlt : 4 * ((i 0).val / 8) + 3 < cfg0.N := by show _ < grid0.N; rw [hN]; omega
  refine ⟨⟨4 * ((i 0).val / 8) + 3, hlt⟩, (flush0_3 _).mpr (by show (4 * ((i 0).val / 8) + 3) % 4 = 3; omega), ?_⟩
  obtain ⟨e0, e1⟩ := idxQ ⟨4 * ((i 0).val / 8) + 3, hlt⟩
  have e0' : win0_3.index ⟨4 * ((i 0).val / 8) + 3, hlt⟩ (0 : Fin 2) = (4 * ((i 0).val / 8) + 3) / 4 := e0
  rw [mem_blkQ]
  intro a
  match a with
  | ⟨0, _⟩ =>
    show win0_3.index ⟨4 * ((i 0).val / 8) + 3, hlt⟩ (0 : Fin 2) * 8 ≤ (i 0).val
      ∧ (i 0).val < win0_3.index ⟨4 * ((i 0).val / 8) + 3, hlt⟩ (0 : Fin 2) * 8 + 8
    omega
  | ⟨1, _⟩ =>
    show win0_3.index ⟨4 * ((i 0).val / 8) + 3, hlt⟩ (1 : Fin 2) * 256 ≤ (i 1).val
      ∧ (i 1).val < win0_3.index ⟨4 * ((i 0).val / 8) + 3, hlt⟩ (1 : Fin 2) * 256 + 256
    omega

/-- The array after the region. -/
theorem finalQ (c : Dev nD) : (dat0 (F := Ideal) V c).arrAt 3 cfg0.N = GQ V c :=
  (dat0 (F := Ideal) V c).arrAt_eq_of_cover 3 (GQ V c) (flushedQ V c) coverQ

/-! ## The array of block N (window 4) -/

/-- What the array ends holding: at (row, column) the total of the four tiles of run `row / 8`. -/
def GN (c : Dev nD) : S16x128.Idx → EReal := fun i =>
  ∑ k ∈ Finset.range 4, contribN V c (4 * ((i 0).val / 8) + k)

/-- The window's index map over the eight points: block `t / 4`, the one column block. -/
theorem idxN : ∀ t : Fin cfg0.N, win0_4.index t (0 : Fin 2) = t.val / 4 ∧ win0_4.index t (1 : Fin 2) = 0 :=
  (by decide +kernel : ∀ t : Fin grid0.N, _)

/-- What a flushing point writes back is its block of `GN`. -/
theorem flushedN (c : Dev nD) (t : Fin cfg0.N) (hf : (cfg0.win 4).flush t = true) :
    (dat0 (F := Ideal) V c).flushed 4 t = ((cfg0.win 4).blk t).view.read (Elt Ideal) (GN V c) := by
  have h3 : t.val % 4 = 3 := (flush0_4 t).mp hf
  have hN : t.val < 8 := lt_of_lt_of_eq t.isLt N_0
  obtain ⟨e0, e1⟩ := idxN t
  show (cfg0.win 4).cut (grid0.coords t) ((dat0 (F := Ideal) V c).after 4 t) = _
  rw [after0_4]
  funext j
  obtain ⟨r, f, rfl⟩ : ∃ (r : Fin 8) (f : Fin 128), j = ix2 r f := ⟨j 0, j 1, eq_ix2 j⟩
  show (outsAt0 V c t.val t.isLt).2.2 (ix2 r f) = GN V c (((cfg0.win 4).blk t).view.emb (ix2 r f))
  have hrun := runN V c r f t.val t.isLt
  unfold atN at hrun
  rw [dif_pos t.isLt] at hrun
  rw [hrun, h3]
  unfold GN
  have hcol : (((cfg0.win 4).blk t).view.emb (ix2 r f)) 1 = f :=
    Fin.ext (by show win0_4.index t (1 : Fin 2) * 128 + 1 * f.val = f.val; omega)
  have hrow : ((((cfg0.win 4).blk t).view.emb (ix2 r f)) 0).val = win0_4.index t (0 : Fin 2) * 8 + 1 * r.val := rfl
  rw [hrow]
  refine Finset.sum_congr rfl fun k _ => congrArg (contribN V c ) ?_
  have := r.isLt
  omega

/-- An index of the array is in point `t`'s block iff each coordinate is in the block's range on its axis. -/
theorem mem_blkN (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v0_2).slice (win0_4.rect t)).set ↔ _
  rw [View.set_slice_whole, Rect.mem_set_unit]
  exact Iff.rfl

/-- Every entry is written back: row `i₀` belongs to run `i₀ / 8`, whose last tile flushes. -/
theorem coverN (i : S16x128.Idx) :
    ∃ t : Fin cfg0.N, (cfg0.win 4).flush t = true ∧ i ∈ ((cfg0.win 4).blk t).view.set := by
  have hN : grid0.N = 8 := N_0
  have h0 : (i 0).val < 16 := (i 0).isLt
  have h1 : (i 1).val < 128 := (i 1).isLt
  have hlt : 4 * ((i 0).val / 8) + 3 < cfg0.N := by show _ < grid0.N; rw [hN]; omega
  refine ⟨⟨4 * ((i 0).val / 8) + 3, hlt⟩, (flush0_4 _).mpr (by show (4 * ((i 0).val / 8) + 3) % 4 = 3; omega), ?_⟩
  obtain ⟨e0, e1⟩ := idxN ⟨4 * ((i 0).val / 8) + 3, hlt⟩
  have e0' : win0_4.index ⟨4 * ((i 0).val / 8) + 3, hlt⟩ (0 : Fin 2) = (4 * ((i 0).val / 8) + 3) / 4 := e0
  rw [mem_blkN]
  intro a
  match a with
  | ⟨0, _⟩ =>
    show win0_4.index ⟨4 * ((i 0).val / 8) + 3, hlt⟩ (0 : Fin 2) * 8 ≤ (i 0).val
      ∧ (i 0).val < win0_4.index ⟨4 * ((i 0).val / 8) + 3, hlt⟩ (0 : Fin 2) * 8 + 8
    omega
  | ⟨1, _⟩ =>
    show win0_4.index ⟨4 * ((i 0).val / 8) + 3, hlt⟩ (1 : Fin 2) * 128 ≤ (i 1).val
      ∧ (i 1).val < win0_4.index ⟨4 * ((i 0).val / 8) + 3, hlt⟩ (1 : Fin 2) * 128 + 128
    omega

/-- The array after the region. -/
theorem finalN (c : Dev nD) : (dat0 (F := Ideal) V c).arrAt 4 cfg0.N = GN V c :=
  (dat0 (F := Ideal) V c).arrAt_eq_of_cover 4 (GN V c) (flushedN V c) coverN

end Cert.KernelIdeal.Stats

end
-- ==== Proof.LibTiledSum.lean ====
/-
  A sum gathered tile by tile is the sum over the whole grid.

  Cut a grid of `R·P` rows and `I·Q` columns into `R·I` tiles of `P × Q` entries, tile `n = i + I·ρ` holding rows
  `P·ρ … P·ρ + P − 1` and columns `Q·i … Q·i + Q − 1`. If `T n` is tile `n`'s double sum of `g`, the tiles' sums add up
  to the double sum of `g` over all rows and columns (`tiled_sum`): split each long axis into quotient and remainder
  and exchange the two middle sums. Coordinates are the pairs of `finProdFinEquiv`: `(ρ, p) ↦ p + P·ρ`.
-/
import Mathlib.Algebra.BigOperators.Fin
import Mathlib.Algebra.BigOperators.Group.Finset.Basic
import Mathlib.Logic.Equiv.Fin.Basic

namespace TiledSum

variable {M : Type} [AddCommMonoid M]

/-- A sum over `Fin (m · n)` is the double sum over quotient `a` and remainder `b`. -/
theorem sum_fin_mul {m n : ℕ} (g : Fin (m * n) → M) :
    ∑ k, g k = ∑ a : Fin m, ∑ b : Fin n, g (finProdFinEquiv (a, b)) :=
  (Equiv.sum_comp finProdFinEquiv g).symm.trans (Fintype.sum_prod_type _)

/-- The tiles' sums add up to the whole grid's. -/
theorem tiled_sum {R I P Q : ℕ} (g : Fin (R * P) → Fin (I * Q) → M) (T : ℕ → M)
    (hT : ∀ (ρ : Fin R) (i : Fin I), T (i.val + I * ρ.val)
      = ∑ p : Fin P, ∑ q : Fin Q, g (finProdFinEquiv (ρ, p)) (finProdFinEquiv (i, q))) :
    ∑ n ∈ Finset.range (R * I), T n = ∑ b : Fin (R * P), ∑ t : Fin (I * Q), g b t := by
  rw [Finset.sum_range (fun n => T n), sum_fin_mul (fun k : Fin (R * I) => T k.val)]
  rw [sum_fin_mul (fun b : Fin (R * P) => ∑ t : Fin (I * Q), g b t)]
  refine Finset.sum_congr rfl fun ρ _ => ?_
  have hl : ∀ i : Fin I, T ((finProdFinEquiv (ρ, i) : Fin (R * I)) : ℕ)
      = ∑ p : Fin P, ∑ q : Fin Q, g (finProdFinEquiv (ρ, p)) (finProdFinEquiv (i, q)) := fun i => hT ρ i
  simp only [hl]
  rw [Finset.sum_comm]
  refine Finset.sum_congr rfl fun p _ => ?_
  exact (sum_fin_mul (fun t : Fin (I * Q) => g (finProdFinEquiv (ρ, p)) t)).symm

end TiledSum
-- ==== Proof.StatsTotals.lean ====
/-
  The statistics region: the totals over the whole arrays.

  Tile `n = i + 4ρ` (core ρ, its i-th tile) holds rows `16ρ … 16ρ + 15` and steps `1024 i … 1024 i + 1023` of the
  values and of the mask words: entry (p, q, f) of its block is entry (16ρ + p, 1024 i + q, f) of the array. The
  eight tiles tile the 32 rows and 4096 steps, so the eight contributions of each statistic add up to the double
  sum of its summand over all rows and steps (`totalS`, `totalQ`, `totalN`).
-/
import proofs.«419955_j52931176956564_4_alg».proof.Proof.StatsRun
import proofs.«419955_j52931176956564_4_alg».proof.Proof.LibTiledSum

set_option maxRecDepth 16384

noncomputable section

namespace Cert.KernelIdeal.Stats

open Cert.KernelIdeal Cert.KernelIdeal.Gen MaskWord
open Idealize.ShloMosaic Idealize.ShloMosaic.TcCoe Idealize.ShloMosaic.ValueIdx Idealize.SL.Sem

variable (V : (c : Dev nD) → (b : Ref sig .tc) → Buf (Elt Ideal) ((c : Thread nD τ).loc b))

/-- The arrays of values and of mask words as the region finds them. -/
abbrev xarr (c : Dev nD) : Vec Ideal S32x4096x256 .f32 := V c main_arg0
abbrev marr (c : Dev nD) : Vec Ideal S32x4096 .i32 := V c main_arg1

/-- The two input windows' index maps over the eight points: row block `t / 4`, step block `t % 4`. -/
theorem idx_in : ∀ t : Fin cfg0.N,
      win0_0.index t (0 : Fin 3) = t.val / 4 ∧ win0_0.index t (1 : Fin 3) = t.val % 4 ∧ win0_0.index t (2 : Fin 3) = 0
    ∧ win0_1.index t (0 : Fin 2) = t.val / 4 ∧ win0_1.index t (1 : Fin 2) = t.val % 4 :=
  (by decide +kernel : ∀ t : Fin grid0.N, _)

/-- Entry (p, q, f) of tile `i + 4ρ`'s block of values is entry (16ρ + p, 1024 i + q, f) of the array. -/
theorem xblk_read (c : Dev nD) (ρ : Fin 2) (i : Fin 4) (h : i.val + 4 * ρ.val < cfg0.N) (p : Fin 16) (q : Fin 1024) (f : Fin 256) :
    xblk V c ⟨i.val + 4 * ρ.val, h⟩ (ix3 p q f)
      = xarr V c (ix3 (finProdFinEquiv (ρ, p)) (finProdFinEquiv (i, q)) f) := by
  obtain ⟨e0, e1, e2, -, -⟩ := idx_in ⟨i.val + 4 * ρ.val, h⟩
  have hi := i.isLt; have hρ := ρ.isLt
  show V c main_arg0 (((cfg0.win 0).blk ⟨i.val + 4 * ρ.val, h⟩).view.emb (ix3 p q f)) = _
  refine congrArg (V c main_arg0) (funext fun a => Fin.ext ?_)
  match a with
  | ⟨0, _⟩ =>
    show win0_0.index ⟨i.val + 4 * ρ.val, h⟩ (0 : Fin 3) * 16 + 1 * p.val = p.val + 16 * ρ.val
    have e : win0_0.index ⟨i.val + 4 * ρ.val, h⟩ (0 : Fin 3) = (i.val + 4 * ρ.val) / 4 := e0
    omega
  | ⟨1, _⟩ =>
    show win0_0.index ⟨i.val + 4 * ρ.val, h⟩ (1 : Fin 3) * 1024 + 1 * q.val = q.val + 1024 * i.val
    have e : win0_0.index ⟨i.val + 4 * ρ.val, h⟩ (1 : Fin 3) = (i.val + 4 * ρ.val) % 4 := e1
    omega
  | ⟨2, _⟩ =>
    show win0_0.index ⟨i.val + 4 * ρ.val, h⟩ (2 : Fin 3) * 256 + 1 * f.val = f.val
    omega

/-- Entry (p, q) of tile `i + 4ρ`'s block of mask words is entry (16ρ + p, 1024 i + q) of the array. -/
theorem mblk_read (c : Dev nD) (ρ : Fin 2) (i : Fin 4) (h : i.val + 4 * ρ.val < cfg0.N) (p : Fin 16) (q : Fin 1024) :
    mblk V c ⟨i.val + 4 * ρ.val, h⟩ (ix2 p q)
      = marr V c (ix2 (finProdFinEquiv (ρ, p)) (finProdFinEquiv (i, q))) := by
  obtain ⟨-, -, -, e0, e1⟩ := idx_in ⟨i.val + 4 * ρ.val, h⟩
  have hi := i.isLt; have hρ := ρ.isLt
  show V c main_arg1 (((cfg0.win 1).blk ⟨i.val + 4 * ρ.val, h⟩).view.emb (ix2 p q)) = _
  refine congrArg (V c main_arg1) (funext fun a => Fin.ext ?_)
  match a with
  | ⟨0, _⟩ =>
    show win0_1.index ⟨i.val + 4 * ρ.val, h⟩ (0 : Fin 2) * 16 + 1 * p.val = p.val + 16 * ρ.val
    have e : win0_1.index ⟨i.val + 4 * ρ.val, h⟩ (0 : Fin 2) = (i.val + 4 * ρ.val) / 4 := e0
    omega
  | ⟨1, _⟩ =>
    show win0_1.index ⟨i.val + 4 * ρ.val, h⟩ (1 : Fin 2) * 1024 + 1 * q.val = q.val + 1024 * i.val
    have e : win0_1.index ⟨i.val + 4 * ρ.val, h⟩ (1 : Fin 2) = (i.val + 4 * ρ.val) % 4 := e1
    omega

/-- The summand of statistic S at (row b, step t) of the whole arrays. -/
def gS (c : Dev nD) (f : Fin 256) (b : Fin 32) (t : Fin 4096) : EReal :=
  xarr V c (ix3 b t f) * ((msk (marr V c (ix2 b t)) : ℝ) : EReal)

/-- The eight tiles' contributions to statistic S add up to the sum over all rows and steps. -/
theorem totalS (c : Dev nD) (f : Fin 256) :
    ∑ n ∈ Finset.range 8, contribS V c f n = ∑ b : Fin 32, ∑ t : Fin 4096, gS V c f b t := by
  refine TiledSum.tiled_sum (R := 2) (I := 4) (P := 16) (Q := 1024) (gS V c f) (contribS V c f) fun ρ i => ?_
  have h : i.val + 4 * ρ.val < cfg0.N := by
    show _ < grid0.N
    rw [N_0]; have := i.isLt; have := ρ.isLt; omega
  unfold contribS
  rw [dif_pos h]
  unfold tileS gS
  simp only [xblk_read, mblk_read]

/-- The summand of statistic Q at (row b, step t) of the whole arrays. -/
def gQ (c : Dev nD) (f : Fin 256) (b : Fin 32) (t : Fin 4096) : EReal :=
  (xarr V c (ix3 b t f) * ((msk (marr V c (ix2 b t)) : ℝ) : EReal)) * xarr V c (ix3 b t f)

/-- The eight tiles' contributions to statistic Q add up to the sum over all rows and steps. -/
theorem totalQ (c : Dev nD) (f : Fin 256) :
    ∑ n ∈ Finset.range 8, contribQ V c f n = ∑ b : Fin 32, ∑ t : Fin 4096, gQ V c f b t := by
  refine TiledSum.tiled_sum (R := 2) (I := 4) (P := 16) (Q := 1024) (gQ V c f) (contribQ V c f) fun ρ i => ?_
  have h : i.val + 4 * ρ.val < cfg0.N := by
    show _ < grid0.N
    rw [N_0]; have := i.isLt; have := ρ.isLt; omega
  unfold contribQ
  rw [dif_pos h]
  unfold tileQ gQ
  simp only [xblk_read, mblk_read]

/-- The summand of statistic N at (row b, step t) of the whole arrays. -/
def gN (c : Dev nD) (b : Fin 32) (t : Fin 4096) : EReal :=
  ((msk (marr V c (ix2 b t)) : ℝ) : EReal)

/-- The eight tiles' contributions to statistic N add up to the sum over all rows and steps. -/
theorem totalN (c : Dev nD) :
    ∑ n ∈ Finset.range 8, contribN V c n = ∑ b : Fin 32, ∑ t : Fin 4096, gN V c b t := by
  refine TiledSum.tiled_sum (R := 2) (I := 4) (P := 16) (Q := 1024) (gN V c ) (contribN V c ) fun ρ i => ?_
  have h : i.val + 4 * ρ.val < cfg0.N := by
    show _ < grid0.N
    rw [N_0]; have := i.isLt; have := ρ.isLt; omega
  unfold contribN
  rw [dif_pos h]
  unfold tileN gN
  simp only [mblk_read]

end Cert.KernelIdeal.Stats

end
-- ==== Proof.KernelFormula.lean ====
/-
  The kernel's result, as one formula of the launch arrays.

  Chaining the two regions through the host operations between them: the second region blends, with the weight of
  the mask word, `x · scale_f + shift_f` and `x`; scale and shift come from the first region's three arrays, whose
  rows 0 and 8 add up to the totals of all eight tiles — the sums over all 32 rows and 4096 steps of `x·w`, of
  `(x·w)·x` and of `w` (`sK`, `qK`, `nK`). So at (b, t, f) the result is the blend with
      mean = sK_f / nK ,  inv = rsqrt (max (qK_f / nK − mean·mean) 0 + ε) ,  scale = γ_f·inv ,  shift = β_f − mean·scale .
-/
import proofs.«419955_j52931176956564_4_alg».proof.Proof.ValueRun
import proofs.«419955_j52931176956564_4_alg».proof.Proof.BlendValue
import proofs.«419955_j52931176956564_4_alg».proof.Proof.GlueAt
import proofs.«419955_j52931176956564_4_alg».proof.Proof.StatsFinal
import proofs.«419955_j52931176956564_4_alg».proof.Proof.StatsTotals

set_option maxRecDepth 16384

noncomputable section

namespace Cert.KernelIdeal.Formula

open Cert.KernelIdeal Cert.KernelIdeal.Gen MaskWord
open Idealize.ShloMosaic Idealize.ShloMosaic.TcCoe Idealize.ShloMosaic.ValueIdx Idealize.SL.Sem

variable (m : (ℓ : Loc nD τ sig) → Buf (Elt Ideal) ℓ) (ρ : Dev nD → PrngReg)

/-- The launch arrays: the values, the mask words, γ and β. -/
abbrev X (c : Dev nD) : Vec Ideal S32x4096x256 .f32 := m ((c : Thread nD τ).loc main_arg0)
abbrev Mw (c : Dev nD) : Vec Ideal S32x4096 .i32 := m ((c : Thread nD τ).loc main_arg1)
abbrev Gm (c : Dev nD) : Vec Ideal S256 .f32 := m ((c : Thread nD τ).loc main_arg2)
abbrev Bt (c : Dev nD) : Vec Ideal S256 .f32 := m ((c : Thread nD τ).loc main_arg3)

/-- The count and the two weighted sums over all rows and steps. -/
def nK (c : Dev nD) : EReal := ∑ b : Fin 32, ∑ t : Fin 4096, ((msk (Mw m c (ix2 b t)) : ℝ) : EReal)
def sK (c : Dev nD) (f : Fin 256) : EReal :=
  ∑ b : Fin 32, ∑ t : Fin 4096, X m c (ix3 b t f) * ((msk (Mw m c (ix2 b t)) : ℝ) : EReal)
def qK (c : Dev nD) (f : Fin 256) : EReal :=
  ∑ b : Fin 32, ∑ t : Fin 4096, (X m c (ix3 b t f) * ((msk (Mw m c (ix2 b t)) : ℝ) : EReal)) * X m c (ix3 b t f)

def meanK (c : Dev nD) (f : Fin 256) : EReal := Ideal.div (sK m c f) (nK m c)
def invK (c : Dev nD) (f : Fin 256) : EReal :=
  Ideal.rsqrt (max (Ideal.div (qK m c f) (nK m c) - meanK m c f * meanK m c f) 0 + Ideal.ofBits .f32 0x3727C5AC#32)

/-- The kernel's result at an entry. -/
def kernelAt (c : Dev nD) (b : Fin 32) (t : Fin 4096) (f : Fin 256) : EReal :=
  Blend.blendAt (X m c (ix3 b t f)) (Mw m c (ix2 b t)) (Gm m c (ix1 f) * invK m c f)
    (Bt m c (ix1 f) - meanK m c f * (Gm m c (ix1 f) * invK m c f))

/-! ## What the second region finds -/

theorem find_x (c : Dev nD) : V2 m ρ c main_arg0 = X m c :=
  ((W3_arr m ρ c 0).trans (((dat1 (V2 m ρ) c).arrAt_in 0 rfl _).trans (A_eq1 (V2 m ρ) c 0))).symm.trans (W3_main_arg0 m ρ c)

theorem find_mask (c : Dev nD) : V2 m ρ c main_arg1 = Mw m c :=
  ((W3_arr m ρ c 1).trans (((dat1 (V2 m ρ) c).arrAt_in 1 rfl _).trans (A_eq1 (V2 m ρ) c 1))).symm.trans (W3_main_arg1 m ρ c)

/-- The first region's three arrays as it leaves them, and γ, β as the host operations find them. -/
theorem left_S (c : Dev nD) : W1 m ρ c (Proc.devRef .tc main_v0_0) = Stats.GS (V0 m ρ) c :=
  (W1_arr m ρ c 2).trans (Stats.finalS (V0 m ρ) c)
theorem left_Q (c : Dev nD) : W1 m ρ c (Proc.devRef .tc main_v0_1) = Stats.GQ (V0 m ρ) c :=
  (W1_arr m ρ c 3).trans (Stats.finalQ (V0 m ρ) c)
theorem left_N (c : Dev nD) : W1 m ρ c (Proc.devRef .tc main_v0_2) = Stats.GN (V0 m ρ) c :=
  (W1_arr m ρ c 4).trans (Stats.finalN (V0 m ρ) c)
theorem left_gamma (c : Dev nD) : W1 m ρ c (Proc.devRef .tc main_arg2) = Gm m c :=
  (W1_of_ne m ρ c main_arg2 (by decide)).trans rfl
theorem left_beta (c : Dev nD) : W1 m ρ c (Proc.devRef .tc main_arg3) = Bt m c :=
  (W1_of_ne m ρ c main_arg3 (by decide)).trans rfl

/-! ## Rows 0 and 8 add up to all eight tiles -/

/-- Two runs of four make eight. -/
theorem two_runs (T : ℕ → EReal) :
    (∑ k ∈ Finset.range 4, T (4 * ((0 : ℕ) / 8) + k)) + (∑ k ∈ Finset.range 4, T (4 * ((8 : ℕ) / 8) + k))
      = ∑ n ∈ Finset.range 8, T n := by
  rw [show (8 : ℕ) = 4 + 4 from rfl, Finset.sum_range_add]
  simp

theorem tot_S (c : Dev nD) (f : Fin 256) : Glue.tot (Stats.GS (V0 m ρ) c) f = sK m c f := by
  unfold Glue.tot Stats.GS
  exact (two_runs (Stats.contribS (V0 m ρ) c f)).trans (Stats.totalS (V0 m ρ) c f)

theorem tot_Q (c : Dev nD) (f : Fin 256) : Glue.tot (Stats.GQ (V0 m ρ) c) f = qK m c f := by
  unfold Glue.tot Stats.GQ
  exact (two_runs (Stats.contribQ (V0 m ρ) c f)).trans (Stats.totalQ (V0 m ρ) c f)

theorem num_N (c : Dev nD) : Glue.num (Stats.GN (V0 m ρ) c) = nK m c := by
  unfold Glue.num Stats.GN
  exact (two_runs (Stats.contribN (V0 m ρ) c)).trans (Stats.totalN (V0 m ρ) c)

/-! ## Scale and shift -/

theorem find_scale (c : Dev nD) (f : Fin 256) : V2 m ρ c main_v27 (ix1 f) = Gm m c (ix1 f) * invK m c f := by
  show W2 m ρ c (Proc.devRef .tc main_v27) (ix1 f) = _
  rw [Glue.scale_eq (F := Ideal) m ρ c, left_S, left_Q, left_N, left_gamma, Glue.scaleOf_apply, Glue.invStd_apply,
    tot_S, tot_Q, num_N]
  rfl

theorem find_shift (c : Dev nD) (f : Fin 256) :
    V2 m ρ c main_v29 (ix1 f) = Bt m c (ix1 f) - meanK m c f * (Gm m c (ix1 f) * invK m c f) := by
  show W2 m ρ c (Proc.devRef .tc main_v29) (ix1 f) = _
  rw [Glue.shift_eq (F := Ideal) m ρ c, left_S, left_Q, left_N, left_gamma, left_beta, Glue.shiftOf_apply,
    Glue.meanOf_apply, Glue.invStd_apply, tot_S, tot_Q, num_N]
  rfl

/-! ## The result -/

/-- The result array after the run, at an entry. -/
theorem result_apply (c : Dev nD) (b : Fin 32) (t : Fin 4096) (f : Fin 256) :
    W3 m ρ c (Proc.devRef .tc main_v30) (ix3 b t f) = kernelAt m c b t f := by
  have hG : W3 m ρ c (Proc.devRef .tc main_v30) = Blend.G (V2 m ρ) c :=
    (W3_arr m ρ c 4).trans (Blend.final (V2 m ρ) c)
  rw [hG]
  unfold Blend.G kernelAt
  show Blend.blendAt (V2 m ρ c main_arg0 (ix3 b t f)) (V2 m ρ c main_arg1 (ix2 b t)) (V2 m ρ c main_v27 (ix1 f))
      (V2 m ρ c main_v29 (ix1 f)) = _
  rw [find_x, find_mask, find_scale, find_shift]

end Cert.KernelIdeal.Formula

end
-- ==== Proof.LibMaskedMoments.lean ====
/-
  Masked moments over a finite index set, on the reals and read on the extended reals.

  For values `x` and weights `w` on a finite set write `n = ∑ w` (the count), `S = ∑ x·w` and `Q = ∑ (x·w)·x`.
  * Expanding the square, `∑ (x − μ)²·w = Q − 2μS + μ²n` for every `μ` (`centred_expand`).
  * Hence at the mean `μ = S/n`, for `n ≠ 0`, the uncentred variance `Q/n − (S/n)²` IS the centred one
    `(∑ (x − S/n)²·w)/n` (`uncentred_eq_centred`): a one-pass and a two-pass variance are one real number.
  * The centred form is non-negative for non-negative weights and a positive count (`centred_nonneg`), so a
    clamp of it at zero from below changes nothing.
  None of this needs the weights to be 0 or 1.
  On the extended reals: a finite sum of real numbers is the real sum (`coe_sum`); the reciprocal square root of
  a positive real is the real `(√a)⁻¹` (`rsqrt_pos`); and the two readings of "normalise where the weight is one,
  keep the value where it is zero" agree: written as a blend `w·(x·s + (b − μ·s)) + (1 − w)·x` with the folded scale
  `s = g·r`, and written as `(x − μ)·r·g + b` selected by the weight — at weight one by distributivity on the reals
  (`blend_one`), at weight zero because `0·y = 0` for EVERY extended real `y`, the infinities included (`blend_zero`).
-/
import Idealize.ShloMosaic.PureOps.Ideal

namespace MaskedMoments

open Idealize.ShloMosaic

variable {ι : Type} [Fintype ι]

/-- A finite sum of real numbers, read on the extended reals, is the real sum. -/
theorem coe_sum {κ : Type} (s : Finset κ) (f : κ → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The weighted sum of squared deviations from any `μ`, expanded: `Q − 2μS + μ²n`. -/
theorem centred_expand (x w : ι → ℝ) (μ : ℝ) :
    ∑ i, ((x i - μ) * (x i - μ)) * w i
      = (∑ i, (x i * w i) * x i) - 2 * μ * (∑ i, x i * w i) + μ * μ * ∑ i, w i := by
  have h : ∀ i, ((x i - μ) * (x i - μ)) * w i = (x i * w i) * x i - 2 * μ * (x i * w i) + μ * μ * w i :=
    fun i => by ring
  simp only [h, Finset.sum_add_distrib, Finset.sum_sub_distrib, Finset.mul_sum]

/-- At the weighted mean, for a non-zero count, the uncentred variance is the centred one. -/
theorem uncentred_eq_centred (x w : ι → ℝ) (hn : (∑ i, w i) ≠ 0) :
    (∑ i, (x i * w i) * x i) / (∑ i, w i)
        - ((∑ i, x i * w i) / (∑ i, w i)) * ((∑ i, x i * w i) / (∑ i, w i))
      = (∑ i, ((x i - (∑ i, x i * w i) / (∑ i, w i)) * (x i - (∑ i, x i * w i) / (∑ i, w i))) * w i)
          / (∑ i, w i) := by
  rw [centred_expand]
  field_simp
  ring

/-- The centred form is non-negative: a sum of squares times non-negative weights, over a positive count. -/
theorem centred_nonneg (x w : ι → ℝ) (μ : ℝ) (hw : ∀ i, 0 ≤ w i) (hn : 0 < ∑ i, w i) :
    0 ≤ (∑ i, ((x i - μ) * (x i - μ)) * w i) / (∑ i, w i) :=
  div_nonneg (Finset.sum_nonneg fun i _ => mul_nonneg (mul_self_nonneg _) (hw i)) hn.le

/-- The reciprocal square root of a positive real is the real `(√a)⁻¹`. -/
theorem rsqrt_pos {a : ℝ} (ha : 0 < a) : Ideal.rsqrt (a : EReal) = (((Real.sqrt a)⁻¹ : ℝ) : EReal) := by
  rw [Ideal.rsqrt_coe, if_neg (not_lt.mpr ha.le), if_neg ha.ne']

/-- Weight one: the blend with the folded scale and shift is the normalised value, by distributivity on the reals. -/
theorem blend_one (x g b μ r : ℝ) :
    ((1 : ℝ) : EReal) * ((x : EReal) * ((g : EReal) * (r : EReal)) + ((b : EReal) - (μ : EReal) * ((g : EReal) * (r : EReal))))
        + (((1 : ℝ) : EReal) - ((1 : ℝ) : EReal)) * (x : EReal)
      = (((x : EReal) - (μ : EReal)) * (r : EReal)) * (g : EReal) + (b : EReal) := by
  have h : (1 : ℝ) * (x * (g * r) + (b - μ * (g * r))) + ((1 : ℝ) - 1) * x = ((x - μ) * r) * g + b := by ring
  exact_mod_cast h

/-- Weight zero: the blend keeps the value, whatever extended real the normalised term is. -/
theorem blend_zero (y x : EReal) : (0 : EReal) * y + ((1 : EReal) - 0) * x = x := by
  rw [zero_mul, sub_zero, one_mul, zero_add]

end MaskedMoments
-- ==== Proof.LibMaskedNormalise.lean ====
/-
  Masked normalisation: the one-pass blend is the two-pass normalised value.

  Real values `x` and non-negative weights `w` on a finite set, one index `i₀` of weight 1 (so the count `n = ∑ w ≥ 1`),
  real `γ`, `β` and an offset `ε > 0`. With `S = ∑ x·w`, `Q = ∑ (x·w)·x`, `μ = S/n` and `C = ∑ (x − μ)²·w`, all sums and
  quotients taken on the extended reals:
      1·(x₀·(γ·r) + (β − μ·(γ·r))) + (1 − 1)·x₀ = ((x₀ − μ)·r')·γ + β ,
  where `r = rsqrt (max (Q/n − μ·μ) 0 + ε)` and `r' = rsqrt (C/n + ε)`. Every quantity is a real number (the count is not
  zero), `Q/n − μ·μ = C/n ≥ 0` so the clamp at zero does nothing and `r = r'` is the real `(√(C/n + ε))⁻¹`, and the
  two sides differ by distributivity.
-/
import proofs.«419955_j52931176956564_4_alg».proof.Proof.LibMaskedMoments

namespace MaskedMoments

open Idealize.ShloMosaic

variable {ι : Type} [Fintype ι]

theorem normalise_eq (xs ws : ι → ℝ) (hw : ∀ i, 0 ≤ ws i) (i₀ : ι) (h1 : ws i₀ = 1) (gam bet e : ℝ) (he : 0 < e)
    (N S Q C : EReal) (hN : N = ∑ i, (ws i : EReal)) (hS : S = ∑ i, (xs i : EReal) * (ws i : EReal))
    (hQ : Q = ∑ i, ((xs i : EReal) * (ws i : EReal)) * (xs i : EReal))
    (hC : C = ∑ i, (((xs i : EReal) - Ideal.div S N) * ((xs i : EReal) - Ideal.div S N)) * (ws i : EReal)) :
    ((1 : ℝ) : EReal) * ((xs i₀ : EReal) * ((gam : EReal) * Ideal.rsqrt (max (Ideal.div Q N - Ideal.div S N * Ideal.div S N) 0 + (e : EReal)))
        + ((bet : EReal) - Ideal.div S N * ((gam : EReal) * Ideal.rsqrt (max (Ideal.div Q N - Ideal.div S N * Ideal.div S N) 0 + (e : EReal)))))
      + (((1 : ℝ) : EReal) - ((1 : ℝ) : EReal)) * (xs i₀ : EReal)
      = (((xs i₀ : EReal) - Ideal.div S N) * Ideal.rsqrt (Ideal.div C N + (e : EReal))) * (gam : EReal) + (bet : EReal) := by
  have eN : N = ((∑ i, ws i : ℝ) : EReal) := by rw [hN]; exact coe_sum _ _
  have eS : S = ((∑ i, xs i * ws i : ℝ) : EReal) := by
    rw [hS]; simp only [← EReal.coe_mul]; exact coe_sum _ _
  have eQ : Q = ((∑ i, (xs i * ws i) * xs i : ℝ) : EReal) := by
    rw [hQ]; simp only [← EReal.coe_mul]; exact coe_sum _ _
  have hN1 : (1 : ℝ) ≤ ∑ i, ws i := by
    rw [← h1]; exact Finset.single_le_sum (fun i _ => hw i) (Finset.mem_univ i₀)
  have hN0 : (∑ i, ws i) ≠ 0 := by linarith
  have hNpos : (0 : ℝ) < ∑ i, ws i := by linarith
  have eμ : Ideal.div S N = (((∑ i, xs i * ws i) / (∑ i, ws i) : ℝ) : EReal) := by
    rw [eS, eN, Ideal.div_coe hN0, ← EReal.coe_mul, mul_one_div]
  have eQN : Ideal.div Q N = (((∑ i, (xs i * ws i) * xs i) / (∑ i, ws i) : ℝ) : EReal) := by
    rw [eQ, eN, Ideal.div_coe hN0, ← EReal.coe_mul, mul_one_div]
  have eC : C = ((∑ i, ((xs i - (∑ i, xs i * ws i) / (∑ i, ws i)) * (xs i - (∑ i, xs i * ws i) / (∑ i, ws i))) * ws i : ℝ) : EReal) := by
    rw [hC, eμ]; simp only [← EReal.coe_sub, ← EReal.coe_mul]; exact coe_sum _ _
  have eCN : Ideal.div C N
      = (((∑ i, ((xs i - (∑ i, xs i * ws i) / (∑ i, ws i)) * (xs i - (∑ i, xs i * ws i) / (∑ i, ws i))) * ws i) / (∑ i, ws i) : ℝ) : EReal) := by
    rw [eC, eN, Ideal.div_coe hN0, ← EReal.coe_mul, mul_one_div]
  have hid := uncentred_eq_centred xs ws hN0
  have hnn := centred_nonneg xs ws ((∑ i, xs i * ws i) / (∑ i, ws i)) hw hNpos
  rw [eQN, eμ, eCN, ← EReal.coe_mul, ← EReal.coe_sub, hid]
  rw [max_eq_left (by exact_mod_cast hnn)]
  rw [← EReal.coe_add, rsqrt_pos (by linarith)]
  exact blend_one (xs i₀) gam bet _ _

end MaskedMoments
-- ==== Proof.Bridge.lean ====
/-
  The two results are one function.

  At an entry (b, t, f), under real-valued x, γ and β. Where the mask word's weight is 0 the kernel's blend is
  `0·(…) + (1 − 0)·x = x` — whatever the statistics are, since `0·y = 0` for every extended real `y` — and the reference
  selects `x`. Where it is 1 the count is at least 1, both programs' statistics are the same real sums over all rows
  and steps, and the kernel's blend with the clamped one-pass variance is the reference's normalised value with the
  two-pass variance (`normalise_eq`). The offset ε both programs carry is the positive real `10995116 / 2⁴⁰`; the
  kernel's literal one is 1.
-/
import proofs.«419955_j52931176956564_4_alg».proof.Proof.KernelFormula
import proofs.«419955_j52931176956564_4_alg».proof.Proof.RefFormula
import proofs.«419955_j52931176956564_4_alg».proof.Proof.LibMaskedNormalise
import Idealize.ShloMosaic.PureOps.IdealRules

set_option maxRecDepth 16384

noncomputable section

namespace Cert.Proof.Bridge

open Cert.KernelIdeal Cert.KernelIdeal.Formula MaskWord MaskedMoments
open Idealize.ShloMosaic Idealize.ShloMosaic.TcCoe Idealize.ShloMosaic.ValueIdx Idealize.SL.Sem

/-- The offset both programs add to the variance is the real `10995116 / 2⁴⁰`, and it is positive. -/
theorem eps_word : Ideal.ofBits .f32 0x3727C5AC#32 = ((10995116 * (2 ^ 40)⁻¹ : ℝ) : EReal) := by
  simp [Ideal.ofBits, Ideal.ieee, -EReal.coe_mul]
theorem eps_pos : (0 : ℝ) < 10995116 * (2 ^ 40)⁻¹ := by positivity

/-- The kernel's literal one. -/
theorem one_word : Ideal.ofBits .f32 0x3F800000#32 = 1 := IdealRules.sign_bit.ideal_onePat .f32

variable (m : (ℓ : Loc nD τ sig) → Buf (Elt Ideal) ℓ)

/-- The reference's count and weighted sum of the launch arrays are the kernel's. -/
theorem cnt_eq (c : Dev nD) : Cert.ReferenceIdeal.Formula.cnt (Mw m c) = nK m c := rfl
theorem sum1_eq (c : Dev nD) (f : Fin 256) : Cert.ReferenceIdeal.Formula.sum1 (X m c) (Mw m c) f = sK m c f := rfl

/-- At every entry the kernel's result is the reference's. -/
theorem bridge (c : Dev nD) (hx : ∀ i, ∃ r : ℝ, X m c i = (r : EReal)) (hg : ∀ i, ∃ r : ℝ, Gm m c i = (r : EReal))
    (hb : ∀ i, ∃ r : ℝ, Bt m c i = (r : EReal)) (b : Fin 32) (t : Fin 4096) (f : Fin 256) :
    kernelAt m c b t f
      = if msk (Mw m c (ix2 b t)) = 1 then Cert.ReferenceIdeal.Formula.normed (X m c) (Mw m c) (Gm m c) (Bt m c) b t f
        else X m c (ix3 b t f) := by
  choose xr hxr using hx
  choose gr hgr using hg
  choose br hbr using hb
  rcases msk_cases (Mw m c (ix2 b t)) with h0 | h1
  · rw [if_neg (by rw [h0]; norm_num)]
    unfold kernelAt Blend.blendAt
    rw [h0, one_word, EReal.coe_zero]
    exact blend_zero _ _
  · rw [if_pos h1]
    have hN : nK m c = ∑ p : Fin 32 × Fin 4096, ((msk (Mw m c (ix2 p.1 p.2)) : ℝ) : EReal) := by
      unfold nK
      exact (Fintype.sum_prod_type' (fun (b' : Fin 32) (t' : Fin 4096) => ((msk (Mw m c (ix2 b' t')) : ℝ) : EReal))).symm
    have hS : sK m c f = ∑ p : Fin 32 × Fin 4096, ((xr (ix3 p.1 p.2 f) : ℝ) : EReal) * ((msk (Mw m c (ix2 p.1 p.2)) : ℝ) : EReal) := by
      unfold sK
      simp only [hxr]
      exact (Fintype.sum_prod_type' (fun (b' : Fin 32) (t' : Fin 4096) =>
        ((xr (ix3 b' t' f) : ℝ) : EReal) * ((msk (Mw m c (ix2 b' t')) : ℝ) : EReal))).symm
    have hQ : qK m c f = ∑ p : Fin 32 × Fin 4096,
        (((xr (ix3 p.1 p.2 f) : ℝ) : EReal) * ((msk (Mw m c (ix2 p.1 p.2)) : ℝ) : EReal)) * ((xr (ix3 p.1 p.2 f) : ℝ) : EReal) := by
      unfold qK
      simp only [hxr]
      exact (Fintype.sum_prod_type' (fun (b' : Fin 32) (t' : Fin 4096) =>
        (((xr (ix3 b' t' f) : ℝ) : EReal) * ((msk (Mw m c (ix2 b' t')) : ℝ) : EReal)) * ((xr (ix3 b' t' f) : ℝ) : EReal))).symm
    have hC : Cert.ReferenceIdeal.Formula.cen2 (X m c) (Mw m c) f = ∑ p : Fin 32 × Fin 4096,
        ((((xr (ix3 p.1 p.2 f) : ℝ) : EReal) - Ideal.div (sK m c f) (nK m c)) * (((xr (ix3 p.1 p.2 f) : ℝ) : EReal) - Ideal.div (sK m c f) (nK m c)))
          * ((msk (Mw m c (ix2 p.1 p.2)) : ℝ) : EReal) := by
      unfold Cert.ReferenceIdeal.Formula.cen2 Cert.ReferenceIdeal.Formula.mean
      rw [cnt_eq, sum1_eq]
      simp only [hxr]
      exact (Fintype.sum_prod_type' (fun (b' : Fin 32) (t' : Fin 4096) =>
        ((((xr (ix3 b' t' f) : ℝ) : EReal) - Ideal.div (sK m c f) (nK m c)) * (((xr (ix3 b' t' f) : ℝ) : EReal) - Ideal.div (sK m c f) (nK m c)))
          * ((msk (Mw m c (ix2 b' t')) : ℝ) : EReal))).symm
    unfold kernelAt Blend.blendAt invK meanK Cert.ReferenceIdeal.Formula.normed Cert.ReferenceIdeal.Formula.inv
      Cert.ReferenceIdeal.Formula.mean Cert.ReferenceIdeal.Formula.eps
    rw [cnt_eq, sum1_eq, h1, one_word, ← EReal.coe_one, eps_word, hxr (ix3 b t f), hgr (ix1 f), hbr (ix1 f)]
    exact normalise_eq (ι := Fin 32 × Fin 4096) (fun p => xr (ix3 p.1 p.2 f)) (fun p => msk (Mw m c (ix2 p.1 p.2)))
      (fun p => msk_nonneg _) (b, t) h1 (gr (ix1 f)) (br (ix1 f)) _ eps_pos
      (nK m c) (sK m c f) (qK m c f) (Cert.ReferenceIdeal.Formula.cen2 (X m c) (Mw m c) f) hN hS hQ hC

end Cert.Proof.Bridge

end
-- ==== Proof.Finite.lean ====
/-
  From the precondition to real numbers.

  The precondition says, of each float argument, that every entry's absolute value is below `+∞`: a conjunction of
  three `all`-reductions of entrywise comparisons. An extended real whose absolute value `max x (−x)` is below `+∞`
  is neither infinity, hence a real number. So every entry of the values, of γ and of β is (the coercion of) a real.
-/
import proofs.«419955_j52931176956564_4_alg».proof.Pre_finite_inputs
import Idealize.ShloMosaic.Lib.ReduceAll
import Idealize.ShloMosaic.Lib.Affine
import Idealize.ShloMosaic.Lib.IdealHost
import Idealize.ShloMosaic.Lib.ValueIdx
import Idealize.ShloMosaic.PureOps.Ideal

noncomputable section

namespace Cert.Pre_finite_inputs.Finite

open Cert.Pre_finite_inputs Cert.Pre_finite_inputs.Facts
open Idealize.ShloMosaic Idealize.ShloMosaic.ValueIdx

instance : Subsingleton S_.Idx := ⟨fun a b => funext fun d => d.elim0⟩

/-- The bound the precondition compares against is `+∞`. -/
theorem inf_word : Ideal.ofBits .f32 0x7F800000#32 = ⊤ := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [inf_word] at h
  unfold Ideal.cmp at h
  induction x using EReal.rec with
  | bot => simp at h
  | top => simp at h
  | coe r => exact ⟨r, rfl⟩

variable [Facts]

/-- Entrywise: where the comparison of an array's absolute values with the bound is all ones, every entry is real. -/
theorem real_of_all {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  rw [cmpf_apply, broadcastInDim_scalar_apply] at h
  exact real_of_abs_lt (x i) h

/-- Under the precondition every entry of the three float arguments is a real number. -/
theorem reals_of_pre (x0 : FVec Ideal S32x4096x256 .f32) (x1 : IVec S32x4096 32) (x2 x3 : FVec Ideal S256 .f32)
    (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ix0
  dsimp only [fn] at h0
  obtain ⟨h01, h3⟩ := IntOp.andi_eq_one.mp h0
  obtain ⟨h0', h2⟩ := IntOp.andi_eq_one.mp h01
  refine ⟨fun i => ?_, fun i => ?_, fun i => ?_⟩
  · exact real_of_all x0 bcast_S_S32x4096x256 i (Host.reduce_andi_all _ _ _ _ _ h0' i)
  · exact real_of_all x2 bcast_S_S256 i (Host.reduce_andi_all _ _ _ _ _ h2 i)
  · exact real_of_all x3 bcast_S_S256 i (Host.reduce_andi_all _ _ _ _ _ h3 i)

end Cert.Pre_finite_inputs.Finite

end
-- ==== Proof.lean ====
/-
  A masked normalisation in two passes, against its one-expression reference.

  The kernel gathers, over the positions whose mask word is positive, the count and per feature the sums of `x` and of
  `x·x` (first region, tile by tile and core by core), forms on the host a scale and a shift from the one-pass variance
  `max (Q/n − (S/n)²) 0`, and blends `x·scale + shift` with `x` by the weight (second region). The reference computes the
  two-pass variance `∑ (x − mean)²·w / n` and selects by the weight. Over the extended reals, under finite inputs, the
  two results are equal entry by entry: where the weight is 0 both are `x` (a product with 0 vanishes whatever the
  statistics, so an all-zero mask is no exception); where it is 1 the count is at least one, everything is a real
  number, the two variances are one number that is not negative, and distributivity does the rest (Proof/Bridge).

  The three frames: the two kernel programs' are the whole-program frames; the reference's is its run with the
  result dropped. Nothing was rewritten between the kernel and its idealization, so that conjunct is `True`.
  For the last conjunct the kernel's run is taken again with the result array kept in the post (Proof/ValueRun),
  read through both regions and the host operations between them (Proof/KernelFormula), and the reference's run is read
  stage by stage (Proof/RefFormula).
-/
import proofs.«419955_j52931176956564_4_alg».proof.Defs
import proofs.«419955_j52931176956564_4_alg».proof.Proof.Gen.Kernel
import proofs.«419955_j52931176956564_4_alg».proof.Proof.Gen.Kernel.Skeleton
import proofs.«419955_j52931176956564_4_alg».proof.Proof.Gen.Kernel.Launch
import proofs.«419955_j52931176956564_4_alg».proof.Proof.Gen.Kernel.Points
import proofs.«419955_j52931176956564_4_alg».proof.Proof.Gen.Kernel.Frame
import proofs.«419955_j52931176956564_4_alg».proof.Proof.Gen.KernelIdeal
import proofs.«419955_j52931176956564_4_alg».proof.Proof.Gen.KernelIdeal.Skeleton
import proofs.«419955_j52931176956564_4_alg».proof.Proof.Gen.KernelIdeal.Launch
import proofs.«419955_j52931176956564_4_alg».proof.Proof.Gen.KernelIdeal.Points
import proofs.«419955_j52931176956564_4_alg».proof.Proof.Gen.KernelIdeal.Frame
import proofs.«419955_j52931176956564_4_alg».proof.Proof.Gen.ReferenceIdeal
import proofs.«419955_j52931176956564_4_alg».proof.Proof.Gen.Pre_finite_inputs
import proofs.«419955_j52931176956564_4_alg».proof.Proof.RefRun
import proofs.«419955_j52931176956564_4_alg».proof.Proof.RefRead
import proofs.«419955_j52931176956564_4_alg».proof.Proof.RefFormula
import proofs.«419955_j52931176956564_4_alg».proof.Proof.ValueRun
import proofs.«419955_j52931176956564_4_alg».proof.Proof.KernelFormula
import proofs.«419955_j52931176956564_4_alg».proof.Proof.Bridge
import proofs.«419955_j52931176956564_4_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments, under finite inputs, both programs end with the same result array. -/
theorem algebraic : Cert.algebraic_KernelIdeal_ReferenceIdeal := by
  intro m ρ m' ρ' hpre hagree
  refine ⟨fun c => Cert.KernelIdeal.Gen.W3 m ρ c (Proc.devRef .tc Cert.KernelIdeal.main_v30),
    Cert.KernelIdeal.GenP.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3⟩ := hagree c
  obtain ⟨hx, hg, hb⟩ := Cert.Pre_finite_inputs.Finite.reals_of_pre _ _ _ _ (hpre c)
  rw [Cert.ReferenceIdeal.ReadP.val_main_v36_eq, h0, h1, h2, h3]
  funext i
  obtain ⟨b, t, f, rfl⟩ : ∃ (b : Fin 32) (t : Fin 4096) (f : Fin 256), i = ix3 b t f := ⟨i 0, i 1, i 2, eq_ix3 i⟩
  refine (Cert.ReferenceIdeal.Formula.result_apply (Cert.KernelIdeal.Formula.X m c) (Cert.KernelIdeal.Formula.Mw m c)
    (Cert.KernelIdeal.Formula.Gm m c) (Cert.KernelIdeal.Formula.Bt m c) b t f).trans ?_
  exact ((Cert.KernelIdeal.Formula.result_apply m ρ c b t f).trans (Cert.Proof.Bridge.bridge m c hx hg hb b t f)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
